-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S1000x2048 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x256 : Shape := ⟨2, ![524288, 256]⟩
abbrev S524288 : Shape := ⟨1, ![524288]⟩
abbrev S1000x256 : Shape := ⟨2, ![1000, 256]⟩
abbrev S_ : Shape := ⟨0, ![]⟩

class Facts : Prop where
  bcast_S_S524288x256 : S_.BroadcastsInDim S524288x256 (![] : Fin 0 → Fin S524288x256.rank)
  reducesTo_S524288x256_S_d0_1 : S524288x256.ReducesTo [0, 1] S_
  h_S_ : 0 < S_.numel
  bcast_S_S1000x256 : S_.BroadcastsInDim S1000x256 (![] : Fin 0 → Fin S1000x256.rank)
  reducesTo_S1000x256_S_d0_1 : S1000x256.ReducesTo [0, 1] S_

variable [Facts]

def fn {F : FTy → Type} [FloatOps F] (main_arg0 : FVec F S524288x256 .f32) (main_arg1 : IVec S524288 32) (main_arg2 : FVec F S1000x256 .f32) (main_arg3 : FVec F S1000x256 .f32) : IVec S_ 1 :=
  let main_v0 : FVec F S524288x256 .f32 := Host.absf main_arg0
  let main_cst : FVec F S_ .f32 := constant S_ .f32 0x7F800000#32
  let main_v1 : FVec F S524288x256 .f32 := broadcastInDim S524288x256 ![] bcast_S_S524288x256 main_cst
  let main_v2 : IVec S524288x256 1 := cmpf .olt main_v0 main_v1
  let main_c : IVec S_ 1 := constantI S_ 1 1#1
  let main_v3 : IVec S_ 1 := (fun x v => Host.reduce IntOp.andi x v reducesTo_S524288x256_S_d0_1 h_S_) main_v2 main_c
  let main_v4 : FVec F S1000x256 .f32 := Host.absf main_arg2
  let main_cst_0 : FVec F S_ .f32 := constant S_ .f32 0x7F800000#32
  let main_v5 : FVec F S1000x256 .f32 := broadcastInDim S1000x256 ![] bcast_S_S1000x256 main_cst_0
  let main_v6 : IVec S1000x256 1 := cmpf .olt main_v4 main_v5
  let main_c_1 : IVec S_ 1 := constantI S_ 1 1#1
  let main_v7 : IVec S_ 1 := (fun x v => Host.reduce IntOp.andi x v reducesTo_S1000x256_S_d0_1 h_S_) main_v6 main_c_1
  let main_v8 : IVec S_ 1 := andi main_v3 main_v7
  let main_v9 : FVec F S1000x256 .f32 := Host.absf main_arg3
  let main_cst_2 : FVec F S_ .f32 := constant S_ .f32 0x7F800000#32
  let main_v10 : FVec F S1000x256 .f32 := broadcastInDim S1000x256 ![] bcast_S_S1000x256 main_cst_2
  let main_v11 : IVec S1000x256 1 := cmpf .olt main_v9 main_v10
  let main_c_3 : IVec S_ 1 := constantI S_ 1 1#1
  let main_v12 : IVec S_ 1 := (fun x v => Host.reduce IntOp.andi x v reducesTo_S1000x256_S_d0_1 h_S_) main_v11 main_c_3
  let main_v13 : IVec S_ 1 := andi main_v8 main_v12
  main_v13
-- ==== Kernel.lean ====
abbrev S524288x256 : Shape := ⟨2, ![524288, 256]⟩
abbrev S524288 : Shape := ⟨1, ![524288]⟩
abbrev S1000x256 : Shape := ⟨2, ![1000, 256]⟩
abbrev S_ : Shape := ⟨0, ![]⟩
abbrev S1x524288 : Shape := ⟨2, ![1, 524288]⟩
abbrev S2x1000x256 : Shape := ⟨3, ![2, 1000, 256]⟩
abbrev S2x1000x1 : Shape := ⟨3, ![2, 1000, 1]⟩
abbrev S2048x256 : Shape := ⟨2, ![2048, 256]⟩
abbrev S1x2048 : Shape := ⟨2, ![1, 2048]⟩
abbrev S1x1000x256 : Shape := ⟨3, ![1, 1000, 256]⟩
abbrev S1x1000x1 : Shape := ⟨3, ![1, 1000, 1]⟩
abbrev S1000x2048 : Shape := ⟨2, ![1000, 2048]⟩
abbrev S1000 : Shape := ⟨1, ![1000]⟩
abbrev S1000x1 : Shape := ⟨2, ![1000, 1]⟩

abbrev nBuf : Space → Nat
  | .hbm => 65
  | .vmem => 9
  | .smem => 0
  | _ => 0

abbrev bufTy : (tb : Table) → Fin (tcTables nBuf tb) → BufTy
  | .hbm, ⟨0, _⟩ => ⟨S524288x256, .f32⟩
  | .hbm, ⟨1, _⟩ => ⟨S524288, .i32⟩
  | .hbm, ⟨2, _⟩ => ⟨S1000x256, .f32⟩
  | .hbm, ⟨3, _⟩ => ⟨S1000x256, .f32⟩
  | .hbm, ⟨4, _⟩ => ⟨S_, .i32⟩
  | .hbm, ⟨5, _⟩ => ⟨S524288, .i32⟩
  | .hbm, ⟨6, _⟩ => ⟨S524288, .i1⟩
  | .hbm, ⟨7, _⟩ => ⟨S_, .i32⟩
  | .hbm, ⟨8, _⟩ => ⟨S524288, .i32⟩
  | .hbm, ⟨9, _⟩ => ⟨S524288, .i1⟩
  | .hbm, ⟨10, _⟩ => ⟨S524288, .i1⟩
  | .hbm, ⟨11, _⟩ => ⟨S_, .i32⟩
  | .hbm, ⟨12, _⟩ => ⟨S_, .i32⟩
  | .hbm, ⟨13, _⟩ => ⟨S524288, .i32⟩
  | .hbm, ⟨14, _⟩ => ⟨S524288, .i32⟩
  | .hbm, ⟨15, _⟩ => ⟨S1x524288, .i32⟩
  | .hbm, ⟨16, _⟩ => ⟨S2x1000x256, .f32⟩
  | .hbm, ⟨17, _⟩ => ⟨S2x1000x1, .f32⟩
  | .hbm, ⟨18, _⟩ => ⟨S_, .f32⟩
  | .hbm, ⟨19, _⟩ => ⟨S1000x256, .f32⟩
  | .hbm, ⟨20, _⟩ => ⟨S_, .f32⟩
  | .hbm, ⟨21, _⟩ => ⟨S1000x1, .f32⟩
  | .hbm, ⟨22, _⟩ => ⟨S1000, .f32⟩
  | .hbm, ⟨23, _⟩ => ⟨S_, .f32⟩
  | .hbm, ⟨24, _⟩ => ⟨S1000, .f32⟩
  | .hbm, ⟨25, _⟩ => ⟨S1000, .i1⟩
  | .hbm, ⟨26, _⟩ => ⟨S_, .f32⟩
  | .hbm, ⟨27, _⟩ => ⟨S1000, .f32⟩
  | .hbm, ⟨28, _⟩ => ⟨S1000, .f32⟩
  | .hbm, ⟨29, _⟩ => ⟨S1000x1, .f32⟩
  | .hbm, ⟨30, _⟩ => ⟨S1000x256, .f32⟩
  | .hbm, ⟨31, _⟩ => ⟨S1000x256, .f32⟩
  | .hbm, ⟨32, _⟩ => ⟨S_, .f32⟩
  | .hbm, ⟨33, _⟩ => ⟨S1000x256, .f32⟩
  | .hbm, ⟨34, _⟩ => ⟨S1000x256, .f32⟩
  | .hbm, ⟨35, _⟩ => ⟨S_, .f32⟩
  | .hbm, ⟨36, _⟩ => ⟨S1000x256, .f32⟩
  | .hbm, ⟨37, _⟩ => ⟨S1000x256, .f32⟩
  | .hbm, ⟨38, _⟩ => ⟨S1000x256, .f32⟩
  | .hbm, ⟨39, _⟩ => ⟨S1000x256, .f32⟩
  | .hbm, ⟨40, _⟩ => ⟨S_, .f32⟩
  | .hbm, ⟨41, _⟩ => ⟨S1000, .f32⟩
  | .hbm, ⟨42, _⟩ => ⟨S1000x1, .f32⟩
  | .hbm, ⟨43, _⟩ => ⟨S1000x1, .f32⟩
  | .hbm, ⟨44, _⟩ => ⟨S1000x256, .f32⟩
  | .hbm, ⟨45, _⟩ => ⟨S1000x256, .f32⟩
  | .hbm, ⟨46, _⟩ => ⟨S1000x1, .i1⟩
  | .hbm, ⟨47, _⟩ => ⟨S1000x256, .i1⟩
  | .hbm, ⟨48, _⟩ => ⟨S1000x256, .f32⟩
  | .hbm, ⟨49, _⟩ => ⟨S1000x256, .f32⟩
  | .hbm, ⟨50, _⟩ => ⟨S1000x256, .f32⟩
  | .hbm, ⟨51, _⟩ => ⟨S_, .f32⟩
  | .hbm, ⟨52, _⟩ => ⟨S1000, .f32⟩
  | .hbm, ⟨53, _⟩ => ⟨S1000, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S1000, .f32⟩
  | .hbm, ⟨61, _⟩ => ⟨S1000, .f32⟩
  | .hbm, ⟨62, _⟩ => ⟨S_, .f32⟩
  | .hbm, ⟨63, _⟩ => ⟨S_, .f32⟩
  | .hbm, ⟨64, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S1x2048, .i32⟩
  | .local _ .vmem, ⟨3, _⟩ => ⟨S1x2048, .i32⟩
  | .local _ .vmem, ⟨4, _⟩ => ⟨S1x1000x256, .f32⟩
  | .local _ .vmem, ⟨5, _⟩ => ⟨S1x1000x256, .f32⟩
  | .local _ .vmem, ⟨6, _⟩ => ⟨S1x1000x1, .f32⟩
  | .local _ .vmem, ⟨7, _⟩ => ⟨S1x1000x1, .f32⟩
  | .local _ .vmem, ⟨8, _⟩ => ⟨S1000x2048, .i32⟩
  | _, _ => ⟨S524288x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_cst : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call1_v0 : Ref sig .tc := ⟨.hbm, 39, rfl⟩
abbrev main_call1_cst : Ref sig .tc := ⟨.hbm, 40, rfl⟩
abbrev main_call1_v1 : Ref sig .tc := ⟨.hbm, 41, rfl⟩
abbrev main_call1_v2 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_call2_v0 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_cst_8 : Ref sig .tc := ⟨.hbm, 54, rfl⟩
abbrev main_v32 : Ref sig .tc := ⟨.hbm, 55, rfl⟩
abbrev main_cst_9 : Ref sig .tc := ⟨.hbm, 56, rfl⟩
abbrev main_v33 : Ref sig .tc := ⟨.hbm, 57, rfl⟩
abbrev main_cst_10 : Ref sig .tc := ⟨.hbm, 58, rfl⟩
abbrev main_call3_v0 : Ref sig .tc := ⟨.hbm, 59, rfl⟩
abbrev main_call3_v1 : Ref sig .tc := ⟨.hbm, 60, rfl⟩
abbrev main_v34 : Ref sig .tc := ⟨.hbm, 61, rfl⟩
abbrev main_cst_11 : Ref sig .tc := ⟨.hbm, 62, rfl⟩
abbrev main_v35 : Ref sig .tc := ⟨.hbm, 63, rfl⟩
abbrev main_v36 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 128], ![false, false]⟩

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S524288 : S_.BroadcastsInDim S524288 (![] : Fin 0 → Fin S524288.rank)
  shapeCasts_S524288_S1x524288 : S524288.ShapeCasts S1x524288
  inb_S1x1000x256_S1x1000x256_0_0_0 : ∀ a, (![0, 0, 0] : Fin 3 → Nat) a + S1x1000x256.size a ≤ S1x1000x256.size a
  h_S1x1000x256 : 0 < S1x1000x256.numel
  inb_S1x1000x1_S1x1000x1_0_0_0 : ∀ a, (![0, 0, 0] : Fin 3 → Nat) a + S1x1000x1.size a ≤ S1x1000x1.size a
  h_S1x1000x1 : 0 < S1x1000x1.numel
  iota_S1000x2048_d0_w32 : S1000x2048.Iotas .tc 32 [0]
  inb_S1000x2048_S1000x2048_0_0 : ∀ a, (![0, 0] : Fin 2 → Nat) a + S1000x2048.size a ≤ S1000x2048.size a
  h_S1000x2048 : 0 < S1000x2048.numel
  shapeCasts_S1000x2048_S1000x2048 : S1000x2048.ShapeCasts S1000x2048
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1000x2048 : S1x2048.Broadcasts S1000x2048
  natLt_1_32 : 1 < 32
  reduces_S1000x2048_S1000 : S1000x2048.Reduces [1] S1000
  shapeCasts_S1000_S1000x1 : S1000.ShapeCasts S1000x1
  shapeCasts_S1x1000x256_S1000x256 : S1x1000x256.ShapeCasts S1000x256
  shapeCasts_S1000x256_S1x1000x256 : S1000x256.ShapeCasts S1x1000x256
  shapeCasts_S1x1000x1_S1000x1 : S1x1000x1.ShapeCasts S1000x1
  shapeCasts_S1000x1_S1x1000x1 : S1000x1.ShapeCasts S1x1000x1
  reducesTo_S2x1000x256_S1000x256_d0 : S2x1000x256.ReducesTo [0] S1000x256
  h_S_ : 0 < S_.numel
  reducesTo_S2x1000x1_S1000x1_d0 : S2x1000x1.ReducesTo [0] S1000x1
  shapeCasts_S1000x1_S1000 : S1000x1.ShapeCasts S1000
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x256_0_1 : S1000x1.BroadcastsInDim S1000x256 (![0, 1] : Fin 2 → Fin S1000x256.rank)
  bcast_S_S1000x256 : S_.BroadcastsInDim S1000x256 (![] : Fin 0 → Fin S1000x256.rank)
  reducesTo_S1000x256_S1000_d1 : S1000x256.ReducesTo [1] S1000
  reducesTo_S1000_S_d0 : S1000.ReducesTo [0] S_
  dot_S1000x2048_S2048x256_S1000x256_1_0_0_1_n_n_wf : DotDims.WF S1000x2048 S2048x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S524288x256.size a
  hwx0_0 : ∀ i : grid0.Coords, EltTy.bits .f32 = 32 ∨ (Rect.block (s := S524288x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x524288.size a
  hwx0_1 : ∀ i : grid0.Coords, EltTy.bits .i32 = 32 ∨ (Rect.block (s := S1x524288) S1x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1000x256.size a ≤ S2x1000x256.size a
  hwx0_2 : ∀ i : grid0.Coords, EltTy.bits .f32 = 32 ∨ (Rect.block (s := S2x1000x256) S1x1000x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1000x1.size a ≤ S2x1000x1.size a
  hwx0_3 : ∀ i : grid0.Coords, EltTy.bits .f32 = 32 ∨ (Rect.block (s := S2x1000x1) S1x1000x1.size (cc0_transform_3 i) (hinb0_3 i)).WholeWords (EltTy.packing .f32)

variable [Facts₀]

def dot_S1000x2048_S2048x256_S1000x256_1_0_0_1_n_n : DotDims S1000x2048 S2048x256 S1000x256 where
  lhsContracting := [1]
  rhsContracting := [0]
  lhsNonContracting := [0]
  rhsNonContracting := [1]
  lhsBatch := []
  rhsBatch := []
  wf := dot_S1000x2048_S2048x256_S1000x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7_0) S1x1000x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7_1) S1x1000x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S524288x256 : Shape := ⟨2, ![524288, 256]⟩
abbrev S524288 : Shape := ⟨1, ![524288]⟩
abbrev S1000x256 : Shape := ⟨2, ![1000, 256]⟩
abbrev S_ : Shape := ⟨0, ![]⟩
abbrev S1000 : Shape := ⟨1, ![1000]⟩
abbrev S524288x1 : Shape := ⟨2, ![524288, 1]⟩
abbrev S1000x1 : Shape := ⟨2, ![1000, 1]⟩

abbrev nBuf : Space → Nat
  | .hbm => 56
  | .vmem => 0
  | .smem => 0
  | _ => 0

abbrev bufTy : (tb : Table) → Fin (tcTables nBuf tb) → BufTy
  | .hbm, ⟨0, _⟩ => ⟨S524288x256, .f32⟩
  | .hbm, ⟨1, _⟩ => ⟨S524288, .i32⟩
  | .hbm, ⟨2, _⟩ => ⟨S1000x256, .f32⟩
  | .hbm, ⟨3, _⟩ => ⟨S1000x256, .f32⟩
  | .hbm, ⟨4, _⟩ => ⟨S_, .f32⟩
  | .hbm, ⟨5, _⟩ => ⟨S524288, .f32⟩
  | .hbm, ⟨6, _⟩ => ⟨S_, .f32⟩
  | .hbm, ⟨7, _⟩ => ⟨S1000, .f32⟩
  | .hbm, ⟨8, _⟩ => ⟨S524288x1, .i32⟩
  | .hbm, ⟨9, _⟩ => ⟨S1000, .f32⟩
  | .hbm, ⟨10, _⟩ => ⟨S_, .f32⟩
  | .hbm, ⟨11, _⟩ => ⟨S1000x256, .f32⟩
  | .hbm, ⟨12, _⟩ => ⟨S524288x1, .i32⟩
  | .hbm, ⟨13, _⟩ => ⟨S1000x256, .f32⟩
  | .hbm, ⟨14, _⟩ => ⟨S_, .f32⟩
  | .hbm, ⟨15, _⟩ => ⟨S1000, .f32⟩
  | .hbm, ⟨16, _⟩ => ⟨S1000, .i1⟩
  | .hbm, ⟨17, _⟩ => ⟨S_, .f32⟩
  | .hbm, ⟨18, _⟩ => ⟨S1000, .f32⟩
  | .hbm, ⟨19, _⟩ => ⟨S1000, .f32⟩
  | .hbm, ⟨20, _⟩ => ⟨S1000x1, .f32⟩
  | .hbm, ⟨21, _⟩ => ⟨S1000x256, .f32⟩
  | .hbm, ⟨22, _⟩ => ⟨S1000x256, .f32⟩
  | .hbm, ⟨23, _⟩ => ⟨S_, .f32⟩
  | .hbm, ⟨24, _⟩ => ⟨S1000x256, .f32⟩
  | .hbm, ⟨25, _⟩ => ⟨S1000x256, .f32⟩
  | .hbm, ⟨26, _⟩ => ⟨S_, .f32⟩
  | .hbm, ⟨27, _⟩ => ⟨S1000x256, .f32⟩
  | .hbm, ⟨28, _⟩ => ⟨S1000x256, .f32⟩
  | .hbm, ⟨29, _⟩ => ⟨S1000x256, .f32⟩
  | .hbm, ⟨30, _⟩ => ⟨S1000x256, .f32⟩
  | .hbm, ⟨31, _⟩ => ⟨S_, .f32⟩
  | .hbm, ⟨32, _⟩ => ⟨S1000, .f32⟩
  | .hbm, ⟨33, _⟩ => ⟨S1000x1, .f32⟩
  | .hbm, ⟨34, _⟩ => ⟨S1000x1, .f32⟩
  | .hbm, ⟨35, _⟩ => ⟨S1000x256, .f32⟩
  | .hbm, ⟨36, _⟩ => ⟨S1000x256, .f32⟩
  | .hbm, ⟨37, _⟩ => ⟨S1000x1, .i1⟩
  | .hbm, ⟨38, _⟩ => ⟨S1000x256, .i1⟩
  | .hbm, ⟨39, _⟩ => ⟨S1000x256, .f32⟩
  | .hbm, ⟨40, _⟩ => ⟨S1000x256, .f32⟩
  | .hbm, ⟨41, _⟩ => ⟨S1000x256, .f32⟩
  | .hbm, ⟨42, _⟩ => ⟨S_, .f32⟩
  | .hbm, ⟨43, _⟩ => ⟨S1000, .f32⟩
  | .hbm, ⟨44, _⟩ => ⟨S1000, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S1000, .f32⟩
  | .hbm, ⟨52, _⟩ => ⟨S1000, .f32⟩
  | .hbm, ⟨53, _⟩ => ⟨S_, .f32⟩
  | .hbm, ⟨54, _⟩ => ⟨S_, .f32⟩
  | .hbm, ⟨55, _⟩ => ⟨S_, .f32⟩
  | _, _ => ⟨S524288x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_cst : Ref sig .tc := ⟨.hbm, 31, rfl⟩
abbrev main_call0_v1 : Ref sig .tc := ⟨.hbm, 32, rfl⟩
abbrev main_call0_v2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call1_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_cst_9 : Ref sig .tc := ⟨.hbm, 49, rfl⟩
abbrev main_call2_v0 : Ref sig .tc := ⟨.hbm, 50, rfl⟩
abbrev main_call2_v1 : Ref sig .tc := ⟨.hbm, 51, rfl⟩
abbrev main_v30 : Ref sig .tc := ⟨.hbm, 52, rfl⟩
abbrev main_cst_10 : Ref sig .tc := ⟨.hbm, 53, rfl⟩
abbrev main_v31 : Ref sig .tc := ⟨.hbm, 54, rfl⟩
abbrev main_v32 : Ref sig .tc := ⟨.hbm, 55, rfl⟩

abbrev nD : Nat := 1
abbrev τ : Topo := Topo.v7x

variable {F : FTy → Type} [FloatOps F]

class Facts₀ : Prop where
  bcast_S_S524288 : S_.BroadcastsInDim S524288 (![] : Fin 0 → Fin S524288.rank)
  bcast_S_S1000 : S_.BroadcastsInDim S1000 (![] : Fin 0 → Fin S1000.rank)
  bcast_S524288_S524288x1_0 : S524288.BroadcastsInDim S524288x1 (![0] : Fin 1 → Fin S524288x1.rank)
  bcast_S_S1000x256 : S_.BroadcastsInDim S1000x256 (![] : Fin 0 → Fin S1000x256.rank)
  bcast_S1000_S1000x1_0 : S1000.BroadcastsInDim S1000x1 (![0] : Fin 1 → Fin S1000x1.rank)
  bcast_S1000x1_S1000x256_0_1 : S1000x1.BroadcastsInDim S1000x256 (![0, 1] : Fin 2 → Fin S1000x256.rank)
  reducesTo_S1000x256_S1000_d1 : S1000x256.ReducesTo [1] S1000
  h_S_ : 0 < S_.numel
  reducesTo_S1000_S_d0 : S1000.ReducesTo [0] S_
  scatter_S1000_S524288x1_S524288_n_0_0_1_wf : ScatterDims.WF S1000 S524288x1 S524288 [] [0] [0] 1
  scatter_S1000x256_S524288x1_S524288x256_1_0_0_1_wf : ScatterDims.WF S1000x256 S524288x1 S524288x256 [1] [0] [0] 1

variable [Facts₀]

def scatter_S1000_S524288x1_S524288_n_0_0_1 : ScatterDims S1000 S524288x1 S524288 where
  updateWindowDims := []
  insertedWindowDims := [0]
  scatterDimsToOperandDims := [0]
  indexVectorDim := 1
  wf := scatter_S1000_S524288x1_S524288_n_0_0_1_wf
def scatter_S1000x256_S524288x1_S524288x256_1_0_0_1 : ScatterDims S1000x256 S524288x1 S524288x256 where
  updateWindowDims := [1]
  insertedWindowDims := [0]
  scatterDimsToOperandDims := [0]
  indexVectorDim := 1
  wf := scatter_S1000x256_S524288x1_S524288x256_1_0_0_1_wf

class Facts : Prop extends Facts₀ where

variable [Facts]
-- ==== Proof.TailDef.lean ====
import proofs.«405858_j83502754169266_3_alg».proof.ReferenceIdeal

noncomputable section

/-! The part both programs share: from the per-class counts `cnt` and the per-class sums `sm` of the rows,
    the class means, the momentum update of the image centres `a2`, its renormalisation to unit length, the
    replacement of the centres of the classes present, and the mean over those classes of the squared
    distance to the sketch centres `a3`. One function of `(cnt, sm, a2, a3)`, never opened again. -/

namespace Cert.ReferenceIdeal.Tail

open Idealize.ShloMosaic Cert.ReferenceIdeal

variable {F : FTy → Type} [FloatOps F] [Facts]
open Facts₀ Facts

/-- The classes that received at least one row. -/
def present (cnt : FVec F S1000 .f32) : IVec S1000 1 :=
  cmpf (F := F) .ogt cnt (broadcastInDim S1000 ![] bcast_S_S1000 (constant S_ .f32 0x00000000#32))

/-- 0.9 · centre + 0.1 · (class sum / max(count, 1)). -/
def upd (cnt : FVec F S1000 .f32) (sm a2 : FVec F S1000x256 .f32) : FVec F S1000x256 .f32 :=
  addf (mulf a2 (broadcastInDim S1000x256 ![] bcast_S_S1000x256 (constant S_ .f32 0x3F666666#32)))
    (mulf (Host.divf sm (broadcastInDim S1000x256 ![0, 1] bcast_S1000x1_S1000x256_0_1
        (broadcastInDim S1000x1 ![0] bcast_S1000_S1000x1_0
          (maximumf cnt (broadcastInDim S1000 ![] bcast_S_S1000 (constant S_ .f32 0x3F800000#32))))))
      (broadcastInDim S1000x256 ![] bcast_S_S1000x256 (constant S_ .f32 0x3DCCCCCD#32)))

/-- The update divided by its row's Euclidean norm. -/
def updn (cnt : FVec F S1000 .f32) (sm a2 : FVec F S1000x256 .f32) : FVec F S1000x256 .f32 :=
  Host.divf (upd cnt sm a2) (broadcastInDim S1000x256 ![0, 1] bcast_S1000x1_S1000x256_0_1
    (Host.sqrt (broadcastInDim S1000x1 ![0] bcast_S1000_S1000x1_0
      (Host.reduceAdd (mulf (upd cnt sm a2) (upd cnt sm a2)) (constant S_ .f32 0x00000000#32) reducesTo_S1000x256_S1000_d1 h_S_))))

/-- The new centres: the renormalised update where the class is present, the old centre elsewhere. -/
def newImg (cnt : FVec F S1000 .f32) (sm a2 : FVec F S1000x256 .f32) : FVec F S1000x256 .f32 :=
  select (broadcastInDim S1000x256 ![0, 1] bcast_S1000x1_S1000x256_0_1
      (broadcastInDim S1000x1 ![0] bcast_S1000_S1000x1_0 (present cnt))) (updn cnt sm a2) a2

/-- Per class, the squared distance of the new centre to the sketch centre. -/
def sq (cnt : FVec F S1000 .f32) (sm a2 a3 : FVec F S1000x256 .f32) : FVec F S1000 .f32 :=
  Host.reduceAdd (mulf (subf (newImg cnt sm a2) a3) (subf (newImg cnt sm a2) a3)) (constant S_ .f32 0x00000000#32)
    reducesTo_S1000x256_S1000_d1 h_S_

/-- The loss: the sum over the present classes of `sq`, over max(number of present classes, 1). -/
def tail (cnt : FVec F S1000 .f32) (sm a2 a3 : FVec F S1000x256 .f32) : FVec F S_ .f32 :=
  Host.divf
    (Host.reduceAdd (select (present cnt) (sq cnt sm a2 a3)
        (broadcastInDim S1000 ![] bcast_S_S1000 (id (constant S_ .f32 0x00000000#32))))
      (constant S_ .f32 0x00000000#32) reducesTo_S1000_S_d0 h_S_)
    (maximumf (Host.reduceAdd (uitofp (F := F) .f32 (present cnt)) (constant S_ .f32 0x00000000#32) reducesTo_S1000_S_d0 h_S_)
      (constant S_ .f32 0x3F800000#32))

end Cert.ReferenceIdeal.Tail

end
-- ==== Proof.RefTail.lean ====
import proofs.«405858_j83502754169266_3_alg».proof.Proof.RefRunP
import proofs.«405858_j83502754169266_3_alg».proof.Proof.TailDef

noncomputable section

namespace Cert.ReferenceIdeal.RefTail

open Idealize.ShloMosaic Idealize.ShloMosaic.TcCoe Idealize.SL.Sem Cert.ReferenceIdeal Cert.ReferenceIdeal.Gen

variable {F : FTy → Type} [FloatOps F]

/-- The per-class counts as the reference computes them: ones scattered by label into zeros. -/
abbrev cnt (m : (ℓ : Loc nD τ sig) → Buf (Elt F) ℓ) (c : Dev nD) : FVec F S1000 .f32 :=
  Host.scatterAdd scatter_S1000_S524288x1_S524288_n_0_0_1
    (broadcastInDim S1000 ![] bcast_S_S1000 (constant S_ .f32 0x00000000#32))
    (broadcastInDim S524288x1 ![0] bcast_S524288_S524288x1_0 (m ((c.tc : Thread nD τ).loc main_arg1)))
    (broadcastInDim S524288 ![] bcast_S_S524288 (constant S_ .f32 0x3F800000#32))

/-- The per-class sums as the reference computes them: the rows scattered by label into zeros. -/
abbrev sm (m : (ℓ : Loc nD τ sig) → Buf (Elt F) ℓ) (c : Dev nD) : FVec F S1000x256 .f32 :=
  Host.scatterAdd scatter_S1000x256_S524288x1_S524288x256_1_0_0_1
    (broadcastInDim S1000x256 ![] bcast_S_S1000x256 (constant S_ .f32 0x00000000#32))
    (broadcastInDim S524288x1 ![0] bcast_S524288_S524288x1_0 (m ((c.tc : Thread nD τ).loc main_arg1)))
    (m ((c.tc : Thread nD τ).loc main_arg0))

/-- The reference's result is the shared tail of its counts and sums. -/
theorem res_eq_tail (m : (ℓ : Loc nD τ sig) → Buf (Elt F) ℓ) (c : Dev nD) :
    Cert.ReferenceIdeal.ValueP.res_main_v32 (F := F) m c
      = Tail.tail (cnt m c) (sm m c) (m ((c.tc : Thread nD τ).loc main_arg2)) (m ((c.tc : Thread nD τ).loc main_arg3)) := by
  unfold Cert.ReferenceIdeal.ValueP.res_main_v32
  rfl

end Cert.ReferenceIdeal.RefTail

end
-- ==== Proof.SegMath.lean ====
import Idealize.ShloMosaic.PureOps.Ideal
import Idealize.ShloMosaic.Lib.ValueIdx

noncomputable section

namespace Cert.SegMath

open Idealize.ShloMosaic

/-- A label word routed to the sentinel −1 unless, read signed, it lies in [0, 1000). -/
def route (l : BitVec 32) : BitVec 32 :=
  Scalar.select (IntOp.andi (IntOp.cmpi .sge l 0#32) (IntOp.cmpi .slt l 1000#32)) l 4294967295#32

/-- A natural number below 1000 survives the round trip through a 32-bit word read signed. -/
private theorem toInt_ofNat_small (k : ℕ) (hk : k < 1000) :
    (BitVec.ofNat 32 k).toInt = (k : ℤ) := by
  rw [BitVec.toInt_eq_toNat_cond, BitVec.toNat_ofNat]
  have hmod : k % 2 ^ 32 = k := Nat.mod_eq_of_lt (by omega)
  rw [hmod]
  split <;> omega

theorem toInt_eq_iff (l : BitVec 32) (k : Fin 1000) :
    l.toInt = (k.val : ℤ) ↔ l = BitVec.ofNat 32 k.val := by
  rw [← toInt_ofNat_small k.val k.isLt]
  exact BitVec.toInt_inj

theorem route_eq_iff (l : BitVec 32) (k : Fin 1000) :
    route l = BitVec.ofNat 32 k.val ↔ l = BitVec.ofNat 32 k.val := by
  have hkI : (BitVec.ofNat 32 k.val).toInt = (k.val : ℤ) := toInt_ofNat_small k.val k.isLt
  have hk := k.isLt
  have hm1 : (4294967295#32).toInt = -1 := by decide
  have h0 : (0#32).toInt = 0 := by decide
  have h1000 : (1000#32).toInt = 1000 := by decide
  -- the sentinel reads −1, which is no k in [0, 1000)
  have hs : ¬ (4294967295#32 = BitVec.ofNat 32 k.val) := by
    intro h
    have := congrArg BitVec.toInt h
    rw [hkI, hm1] at this
    omega
  simp only [route, Scalar.select, IntOp.andi, IntOp.cmpi, BitVec.ofBool_and_ofBool]
  by_cases h1 : (0#32).sle l = true <;> by_cases h2 : l.slt 1000#32 = true
  · simp [h1, h2]
  · -- l ≥ 1000 signed, so l is no k < 1000
    have hl : ¬ l = BitVec.ofNat 32 k.val := by
      intro h
      rw [BitVec.slt_iff_toInt_lt, h, hkI, h1000] at h2
      omega
    simp [h1, h2, hl, hs]
  · -- l < 0 signed, so l is no k ≥ 0
    have hl : ¬ l = BitVec.ofNat 32 k.val := by
      intro h
      rw [BitVec.sle_iff_toInt_le, h, hkI, h0] at h1
      omega
    simp [h1, h2, hl, hs]
  · have hl : ¬ l = BitVec.ofNat 32 k.val := by
      intro h
      rw [BitVec.sle_iff_toInt_le, h, hkI, h0] at h1
      omega
    simp [h1, h2, hl, hs]

theorem onehot_apply (a : BitVec 32) (k : Fin 1000) :
    (FloatOps.sitofp (F := Ideal) .f32 ((IntOp.cmpi .eq a (BitVec.ofNat 32 k.val)).setWidth 32) : EReal)
      = if a = BitVec.ofNat 32 k.val then 1 else 0 := by
  show ((((BitVec.ofBool (a == BitVec.ofNat 32 k.val)).setWidth 32).toInt : ℝ) : EReal) = _
  by_cases h : a = BitVec.ofNat 32 k.val
  · have hb : (a == BitVec.ofNat 32 k.val) = true := by simpa using h
    have hw : ((BitVec.ofBool true).setWidth 32).toInt = 1 := by decide
    rw [if_pos h, hb, hw]
    simp
  · have hb : (a == BitVec.ofNat 32 k.val) = false := by simpa using h
    have hw : ((BitVec.ofBool false).setWidth 32).toInt = 0 := by decide
    rw [if_neg h, hb, hw]
    simp

theorem sum_onehot_mul {ι : Type} [Fintype ι] (p : ι → Prop) [DecidablePred p] (f : ι → EReal) :
    ∑ r, (if p r then (1 : EReal) else 0) * f r = ∑ r, if p r then f r else 0 := by
  apply Finset.sum_congr rfl
  intro r _
  by_cases h : p r
  · simp [h]
  · simp [h]

/-- Summing g over A consecutive blocks of length B is summing g over the first A·B naturals. -/
private theorem sum_range_mul (g : ℕ → EReal) (A B : ℕ) :
    ∑ a ∈ Finset.range A, ∑ b ∈ Finset.range B, g (B * a + b)
      = ∑ n ∈ Finset.range (A * B), g n := by
  induction A with
  | zero => simp
  | succ A ih =>
    rw [Finset.sum_range_succ, ih, Nat.succ_mul, Finset.sum_range_add, Nat.mul_comm B A]

theorem sum_blocks (g : ℕ → EReal) :
    ∑ c : Fin 2, ∑ s ∈ Finset.range 128, ∑ r : Fin 2048, g (2048 * (128 * c.val + s) + r.val)
      = ∑ b : Fin 524288, g b.val := by
  -- a sum over Fin n of a function of the underlying natural is a sum over the first n naturals
  have hF : ∀ (n : ℕ) (f : ℕ → EReal), ∑ i : Fin n, f i.val = ∑ i ∈ Finset.range n, f i :=
    fun n f => Fin.sum_univ_eq_sum_range f n
  have inner : ∀ c s : ℕ, ∑ r : Fin 2048, g (2048 * (128 * c + s) + r.val)
      = ∑ r ∈ Finset.range 2048, g (2048 * (128 * c + s) + r) :=
    fun c s => hF 2048 (fun r => g (2048 * (128 * c + s) + r))
  rw [hF 524288 g,
    hF 2 (fun c => ∑ s ∈ Finset.range 128, ∑ r : Fin 2048, g (2048 * (128 * c + s) + r.val))]
  simp only [inner]
  -- 2 blocks of 128 make 256 rows-of-rows; 256 blocks of 2048 make 524288 = 2 · 128 · 2048
  rw [sum_range_mul (fun m => ∑ r ∈ Finset.range 2048, g (2048 * m + r)) 2 128,
    sum_range_mul g (2 * 128) 2048]

end Cert.SegMath

end
-- ==== Proof.KernelHost.lean ====
import proofs.«405858_j83502754169266_3_alg».proof.Proof.Gen.KernelIdeal.Frame
import proofs.«405858_j83502754169266_3_alg».proof.Proof.Gen.ReferenceIdeal
import proofs.«405858_j83502754169266_3_alg».proof.Proof.TailDef
import proofs.«405858_j83502754169266_3_alg».proof.Proof.SegMath
import Idealize.ShloMosaic.Lib.Pipeline.Value
import Idealize.ShloMosaic.Lib.StableHlo.Run
import Idealize.ShloMosaic.Lib.ValueIdx
import Idealize.ShloMosaic.Lib.ValueLayout

noncomputable section

/-! The host operations around the pallas_call. Before it: each label is kept if, read signed, it lies in
    [0, 1000), and replaced by −1 otherwise, and the labels are laid out as one row. After it: the two cores'
    blocks are added, and the shared tail is applied to the counts and the sums so obtained. -/

namespace Cert.KernelIdeal.HostSide

open Idealize.ShloMosaic Idealize.ShloMosaic.TcCoe Idealize.SL.Sem Cert.KernelIdeal Cert.KernelIdeal.Gen ValueIdx
open Idealize.ShloMosaic.StableHlo
open Idealize.ShloMosaic.Pipeline (Dat)

variable {F : FTy → Type} [FloatOps F]

/-- The label row the region reads, from any contents `M` of the buffers before the first host operation. -/
theorem routed_of (M : Valuation τ sig (Elt F)) :
    StableHlo.after (List.flatten [hostOps0, hostOps0_1, hostOps0_2]) M (Proc.devRef .tc main_v6)
      = shapeCast S1x524288
          (select (andi (cmpi .sge (M (Proc.devRef .tc main_arg1) : IVec S524288 32) (broadcastInDim S524288 ![] bcast_S_S524288 (constantI S_ 32 0#32)))
              (cmpi .slt (M (Proc.devRef .tc main_arg1) : IVec S524288 32) (broadcastInDim S524288 ![] bcast_S_S524288 (constantI S_ 32 1000#32))))
            (M (Proc.devRef .tc main_arg1) : IVec S524288 32)
            (broadcastInDim S524288 ![] bcast_S_S524288 (constantI S_ 32 4294967295#32)))
          shapeCasts_S524288_S1x524288 := by
  simp only [hostOps0, hostOps0_1, hostOps0_2, List.flatten_cons, List.flatten_nil, List.append_nil, List.cons_append, List.nil_append]
  after_results_simp
  rfl

/-- The loss the host computes after the region, from any contents `W` of the buffers at the region's exit: the
    shared tail of the two cores' counts added and of their sums added. -/
theorem tail_of (W : Valuation τ sig (Elt F)) :
    StableHlo.after (List.flatten [hostOps1, hostOps1_1, hostOps1_2, hostOps1_3, hostOps1_4, hostOps1_5, hostOps1_6]) W (Proc.devRef .tc main_v36)
      = Cert.ReferenceIdeal.Tail.tail
          (shapeCast S1000 (Host.reduceAdd (W (Proc.devRef .tc main_v7_1) : FVec F S2x1000x1 .f32) (constant S_ .f32 0x00000000#32) reducesTo_S2x1000x1_S1000x1_d0 h_S_) shapeCasts_S1000x1_S1000)
          (Host.reduceAdd (W (Proc.devRef .tc main_v7_0) : FVec F S2x1000x256 .f32) (constant S_ .f32 0x00000000#32) reducesTo_S2x1000x256_S1000x256_d0 h_S_)
          (W (Proc.devRef .tc main_arg2)) (W (Proc.devRef .tc main_arg3)) := by
  simp only [hostOps1, hostOps1_1, hostOps1_2, hostOps1_3, hostOps1_4, hostOps1_5, hostOps1_6, List.flatten_cons, List.flatten_nil, List.append_nil, List.cons_append, List.nil_append]
  after_results_simp
  rfl

variable (m : (ℓ : Loc nD τ sig) → Buf (Elt F) ℓ)

/-- The region's label row at column `b` is label `b`, routed. -/
theorem routed_apply (c : Dev nD) (b : Fin 524288) :
    (V m c main_v6 : S1x524288.Idx → BitVec 32) (ix2 0 b)
      = Cert.SegMath.route ((m ((c.tc : Thread nD τ).loc main_arg1) : IVec S524288 32) (ix1 b)) := by
  show StableHlo.after (List.flatten [hostOps0, hostOps0_1, hostOps0_2]) (fun r => m (c, r)) (Proc.devRef .tc main_v6) (ix2 0 b) = _
  rw [routed_of]
  refine (shapeCast_a_1a_apply _ _ 0 b).trans ?_
  rfl

/-- The loss at the run's end is the shared tail of the counts and sums read off the region's two result arrays. -/
theorem kernel_tail (c : Dev nD) :
    Pipeline.afterTail₀ cfgs (dats m) 0 (V0 m) [hostOps1, hostOps1_1, hostOps1_2, hostOps1_3, hostOps1_4, hostOps1_5, hostOps1_6] c main_v36
      = Cert.ReferenceIdeal.Tail.tail
          (shapeCast S1000 (Host.reduceAdd ((dats m 0 c).arrAt 3 cfg0.N : FVec F S2x1000x1 .f32) (constant S_ .f32 0x00000000#32) reducesTo_S2x1000x1_S1000x1_d0 h_S_) shapeCasts_S1000x1_S1000)
          (Host.reduceAdd ((dats m 0 c).arrAt 2 cfg0.N : FVec F S2x1000x256 .f32) (constant S_ .f32 0x00000000#32) reducesTo_S2x1000x256_S1000x256_d0 h_S_)
          (m ((c.tc : Thread nD τ).loc main_arg2)) (m ((c.tc : Thread nD τ).loc main_arg3)) := by
  unfold Pipeline.afterTail₀
  refine (tail_of _).trans ?_
  have h3 := Pipeline.withArrays_arr (cfgs 0).spec launch0.win.arr_inj c (V0 m c) (fun w => (dats m 0 c).arrAt w (cfgs 0).N) 3
  have h2 := Pipeline.withArrays_arr (cfgs 0).spec launch0.win.arr_inj c (V0 m c) (fun w => (dats m 0 c).arrAt w (cfgs 0).N) 2
  have ha2 := (Pipeline.withArrays_of_ne (cfgs 0).spec c (V0 m c) (fun w => (dats m 0 c).arrAt w (cfgs 0).N) main_arg2 (by exact (by decide : ∀ w, Pipeline.arrRef spec0 w ≠ main_arg2))).trans (V_main_arg2 m c)
  have ha3 := (Pipeline.withArrays_of_ne (cfgs 0).spec c (V0 m c) (fun w => (dats m 0 c).arrAt w (cfgs 0).N) main_arg3 (by exact (by decide : ∀ w, Pipeline.arrRef spec0 w ≠ main_arg3))).trans (V_main_arg3 m c)
  rw [h3, h2, ha2, ha3]

end Cert.KernelIdeal.HostSide

end
-- ==== Proof.KernelPieces.lean ====
import proofs.«405858_j83502754169266_3_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Cert.KernelIdeal Cert.KernelIdeal.Gen

variable {F : FTy → Type} [FloatOps F]

/-- The literal zero offsets of a rank-2 rectangle are the zero function. -/
private theorem hz2 : (![0, 0] : Fin 2 → Nat) = fun _ => 0 := funext fun a => by fin_cases a <;> rfl

/-- The literal zero offsets of a rank-3 rectangle are the zero function. -/
private theorem hz3 : (![0, 0, 0] : Fin 3 → Nat) = fun _ => 0 := funext fun a => by fin_cases a <;> rfl

/-- Case A, output 2: the reset's zero block is overwritten by the covering accumulate store, whose operands are the
    input blocks read whole, the grid of row indices just stored into the scratch, and the zero block just stored. -/
theorem out_A_2 (c : Dev nD) (i : grid0.Coords) (a2 : Memref sig .tc .vmem S2048x256 .f32) (h2 : a2.IsWhole) (a3 : Memref sig .tc .vmem S1x2048 .i32) (h3 : a3.IsWhole) (a4 : Memref sig .tc .vmem S1x1000x256 .f32) (h4 : a4.IsWhole) (a5 : Memref sig .tc .vmem S1x1000x1 .f32) (h5 : a5.IsWhole) (a6 : Memref sig .tc .vmem S1000x2048 .i32) (h6 : a6.IsWhole) (hc : cond0_0 i)
    (x0 : Vec F S2048x256 .f32) (x1 : Vec F S1x2048 .i32) :
    out0_A_2 c i a2 h2 a3 h3 a4 h4 a5 h5 a6 h6 hc x0 x1 = k0_pay5 x0 x1 k0_pay3 (k0_pay1 (F := F)) := by
  unfold out0_A_2
  rw [View.read_writes_eq_canon _ _ _ (cover0_A_2 c i a2 h2 a3 h3 a4 h4 a5 h5 a6 h6 hc x0 x1)]
  unfold kernelRun0_A
  dsimp only
  sl_unfold_words
  rw [View.canon_cons_unit_zero (S := S1x1000x256) hz3]
  simp only [View.readAt_eq_ld, h2.read_unread, h3.read_unread,
    View.readCov_unit_zero (S := S1000x2048) _ hz2, View.readCov_unit_zero (S := S1x1000x256) _ hz3,
    View.ld_unit_zero (S := S2048x256) hz2, View.ld_unit_zero (S := S1x2048) hz2]

/-- Case A, output 3: likewise, the covering accumulate store over the zero column just stored, counting against the
    grid of row indices just stored into the scratch. -/
theorem out_A_3 (c : Dev nD) (i : grid0.Coords) (a2 : Memref sig .tc .vmem S2048x256 .f32) (h2 : a2.IsWhole) (a3 : Memref sig .tc .vmem S1x2048 .i32) (h3 : a3.IsWhole) (a4 : Memref sig .tc .vmem S1x1000x256 .f32) (h4 : a4.IsWhole) (a5 : Memref sig .tc .vmem S1x1000x1 .f32) (h5 : a5.IsWhole) (a6 : Memref sig .tc .vmem S1000x2048 .i32) (h6 : a6.IsWhole) (hc : cond0_0 i)
    (x0 : Vec F S2048x256 .f32) (x1 : Vec F S1x2048 .i32) :
    out0_A_3 c i a2 h2 a3 h3 a4 h4 a5 h5 a6 h6 hc x0 x1 = k0_pay6 x1 k0_pay3 (k0_pay2 (F := F)) := by
  unfold out0_A_3
  rw [View.read_writes_eq_canon _ _ _ (cover0_A_3 c i a2 h2 a3 h3 a4 h4 a5 h5 a6 h6 hc x0 x1)]
  unfold kernelRun0_A
  dsimp only
  sl_unfold_words
  rw [View.canon_cons_unit_zero (S := S1x1000x1) hz3]
  simp only [View.readAt_eq_ld, h3.read_unread,
    View.readCov_unit_zero (S := S1000x2048) _ hz2, View.readCov_unit_zero (S := S1x1000x1) _ hz3,
    View.ld_unit_zero (S := S1x2048) hz2]

/-- Case A, the carried scratch: its one covering store leaves the grid of row indices. -/
theorem sout_A_0 (c : Dev nD) (i : grid0.Coords) (a2 : Memref sig .tc .vmem S2048x256 .f32) (h2 : a2.IsWhole) (a3 : Memref sig .tc .vmem S1x2048 .i32) (h3 : a3.IsWhole) (a4 : Memref sig .tc .vmem S1x1000x256 .f32) (h4 : a4.IsWhole) (a5 : Memref sig .tc .vmem S1x1000x1 .f32) (h5 : a5.IsWhole) (a6 : Memref sig .tc .vmem S1000x2048 .i32) (h6 : a6.IsWhole) (hc : cond0_0 i)
    (x0 : Vec F S2048x256 .f32) (x1 : Vec F S1x2048 .i32) :
    sout0_A_0 c i a2 h2 a3 h3 a4 h4 a5 h5 a6 h6 hc x0 x1 = k0_pay3 := by
  unfold sout0_A_0
  rw [View.read_writes_eq_canon _ _ _ (scover0_A_0 c i a2 h2 a3 h3 a4 h4 a5 h5 a6 h6 hc x0 x1)]
  unfold kernelRun0_A
  dsimp only
  sl_unfold_words
  rw [View.canon_unit_zero (S := S1000x2048) hz2]

/-- Case B, output 2: the one covering store accumulates over what the point before left in the output and the
    scratch, every operand read whole. -/
theorem out_B_2 (c : Dev nD) (i : grid0.Coords) (a2 : Memref sig .tc .vmem S2048x256 .f32) (h2 : a2.IsWhole) (a3 : Memref sig .tc .vmem S1x2048 .i32) (h3 : a3.IsWhole) (a4 : Memref sig .tc .vmem S1x1000x256 .f32) (h4 : a4.IsWhole) (a5 : Memref sig .tc .vmem S1x1000x1 .f32) (h5 : a5.IsWhole) (a6 : Memref sig .tc .vmem S1000x2048 .i32) (h6 : a6.IsWhole) (hc : ¬cond0_0 i)
    (x0 : Vec F S2048x256 .f32) (x1 : Vec F S1x2048 .i32) (xo2 : Vec F S1x1000x256 .f32) (xo3 : Vec F S1x1000x1 .f32) (xs0 : Vec F S1000x2048 .i32) :
    out0_B_2 c i a2 h2 a3 h3 a4 h4 a5 h5 a6 h6 hc x0 x1 xo2 xo3 xs0 = k0_pay5 x0 x1 xs0 xo2 := by
  unfold out0_B_2
  rw [View.read_writes_eq_canon _ _ _ (cover0_B_2 c i a2 h2 a3 h3 a4 h4 a5 h5 a6 h6 hc x0 x1 xo2 xo3 xs0)]
  unfold kernelRun0_B
  dsimp only
  sl_unfold_words
  rw [View.canon_unit_zero (S := S1x1000x256) hz3]
  simp only [View.readAt_eq_ld, h2.read_unread, h3.read_unread, h4.read_unread, h6.read_unread,
    View.ld_unit_zero (S := S2048x256) hz2, View.ld_unit_zero (S := S1x2048) hz2,
    View.ld_unit_zero (S := S1000x2048) hz2, View.ld_unit_zero (S := S1x1000x256) hz3]

/-- Case B, output 3: likewise for the count column. -/
theorem out_B_3 (c : Dev nD) (i : grid0.Coords) (a2 : Memref sig .tc .vmem S2048x256 .f32) (h2 : a2.IsWhole) (a3 : Memref sig .tc .vmem S1x2048 .i32) (h3 : a3.IsWhole) (a4 : Memref sig .tc .vmem S1x1000x256 .f32) (h4 : a4.IsWhole) (a5 : Memref sig .tc .vmem S1x1000x1 .f32) (h5 : a5.IsWhole) (a6 : Memref sig .tc .vmem S1000x2048 .i32) (h6 : a6.IsWhole) (hc : ¬cond0_0 i)
    (x0 : Vec F S2048x256 .f32) (x1 : Vec F S1x2048 .i32) (xo2 : Vec F S1x1000x256 .f32) (xo3 : Vec F S1x1000x1 .f32) (xs0 : Vec F S1000x2048 .i32) :
    out0_B_3 c i a2 h2 a3 h3 a4 h4 a5 h5 a6 h6 hc x0 x1 xo2 xo3 xs0 = k0_pay6 x1 xs0 xo3 := by
  unfold out0_B_3
  rw [View.read_writes_eq_canon _ _ _ (cover0_B_3 c i a2 h2 a3 h3 a4 h4 a5 h5 a6 h6 hc x0 x1 xo2 xo3 xs0)]
  unfold kernelRun0_B
  dsimp only
  sl_unfold_words
  rw [View.canon_unit_zero (S := S1x1000x1) hz3]
  simp only [View.readAt_eq_ld, h3.read_unread, h5.read_unread, h6.read_unread,
    View.ld_unit_zero (S := S1x2048) hz2, View.ld_unit_zero (S := S1000x2048) hz2,
    View.ld_unit_zero (S := S1x1000x1) hz3]

end Cert.KernelIdeal.Pieces

end
-- ==== Proof.KernelPayload.lean ====
import proofs.«405858_j83502754169266_3_alg».proof.Proof.Gen.KernelIdeal.Skeleton
import proofs.«405858_j83502754169266_3_alg».proof.Proof.SegMath
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Idealize.ShloMosaic Cert.KernelIdeal Cert.KernelIdeal.Gen ValueIdx

/-! ## The two zero payloads -/

/-- The broadcast of +0.0 reads the extended real 0 at every index. -/
theorem pay1_apply (i : S1x1000x256.Idx) : k0_pay1 (F := Ideal) i = 0 :=
  Ideal.ofBits_zero_f32

theorem pay2_apply (i : S1x1000x1.Idx) : k0_pay2 (F := Ideal) i = 0 :=
  Ideal.ofBits_zero_f32

/-! ## The matrix product read at an index -/

/-- The matrix product's dimension numbers contract the left operand's axis 1 with the right operand's axis 0;
    the left operand's row is the result's row … -/
theorem lhs0 (j : S1000x256.Idx) (q : dot_S1000x2048_S2048x256_S1000x256_1_0_0_1_n_n.contr.Idx) :
    (dot_S1000x2048_S2048x256_S1000x256_1_0_0_1_n_n.lhsIdx j q 0).val = (j 0).val := by
  simp [DotDims.lhsIdx, dot_S1000x2048_S2048x256_S1000x256_1_0_0_1_n_n]
  rfl

/-- … its column the contraction coordinate … -/
theorem lhs1 (j : S1000x256.Idx) (q : dot_S1000x2048_S2048x256_S1000x256_1_0_0_1_n_n.contr.Idx) :
    (dot_S1000x2048_S2048x256_S1000x256_1_0_0_1_n_n.lhsIdx j q 1).val = (q ⟨0, by decide⟩).val :=
  DotDims.lhsIdx_val_of_single _ rfl j q

/-- … the right operand's row the contraction coordinate … -/
theorem rhs0 (j : S1000x256.Idx) (q : dot_S1000x2048_S2048x256_S1000x256_1_0_0_1_n_n.contr.Idx) :
    (dot_S1000x2048_S2048x256_S1000x256_1_0_0_1_n_n.rhsIdx j q 0).val = (q ⟨0, by decide⟩).val :=
  DotDims.rhsIdx_val_of_single _ rfl j q

/-- … and its column the result's column. -/
theorem rhs1 (j : S1000x256.Idx) (q : dot_S1000x2048_S2048x256_S1000x256_1_0_0_1_n_n.contr.Idx) :
    (dot_S1000x2048_S2048x256_S1000x256_1_0_0_1_n_n.rhsIdx j q 1).val = (j 1).val := by
  simp [DotDims.rhsIdx, dot_S1000x2048_S2048x256_S1000x256_1_0_0_1_n_n]
  rfl

/-- The matrix product into the zero accumulator, read at (k, d): the sum over the 2048 contracted coordinates of the
    products of the operands' entries. -/
theorem dot_apply (A : FVec Ideal S1000x2048 .bf16) (B : FVec Ideal S2048x256 .bf16) (k : Fin 1000) (d : Fin 256) :
    matmul dot_S1000x2048_S2048x256_S1000x256_1_0_0_1_n_n none A B (constant (F := Ideal) S1000x256 .f32 0x00000000#32) (ix2 k d)
      = ∑ r : Fin 2048, A (ix2 k r) * B (ix2 r d) := by
  refine (Ideal.matmul_constant_zero_apply dot_S1000x2048_S2048x256_S1000x256_1_0_0_1_n_n none A B (ix2 k d)).trans ?_
  rw [← Equiv.sum_comp (contrEquiv1 dot_S1000x2048_S2048x256_S1000x256_1_0_0_1_n_n 2048 rfl rfl).symm]
  refine Finset.sum_congr rfl fun c _ => ?_
  have c2 := contrEquiv1_symm_val dot_S1000x2048_S2048x256_S1000x256_1_0_0_1_n_n 2048 rfl rfl c
  have l2 : dot_S1000x2048_S2048x256_S1000x256_1_0_0_1_n_n.lhsIdx (ix2 k d)
      ((contrEquiv1 dot_S1000x2048_S2048x256_S1000x256_1_0_0_1_n_n 2048 rfl rfl).symm c) = ix2 k c := by
    funext ax; apply Fin.ext
    match ax with
    | ⟨0, _⟩ => exact lhs0 _ _
    | ⟨1, _⟩ => exact (lhs1 _ _).trans c2
  have r2 : dot_S1000x2048_S2048x256_S1000x256_1_0_0_1_n_n.rhsIdx (ix2 k d)
      ((contrEquiv1 dot_S1000x2048_S2048x256_S1000x256_1_0_0_1_n_n 2048 rfl rfl).symm c) = ix2 c d := by
    funext ax; apply Fin.ext
    match ax with
    | ⟨0, _⟩ => exact (rhs0 _ _).trans c2
    | ⟨1, _⟩ => exact rhs1 _ _
  rw [l2, r2]

/-! ## The class grid and the one-hot of the labels -/

/-- The class grid: the iota over axis 0 reads the row, as a 32-bit word. -/
theorem pay3_apply (k : Fin 1000) (r : Fin 2048) : k0_pay3 (ix2 k r) = BitVec.ofNat 32 k.val := by
  unfold k0_pay3
  refine (congrFun (shapeCast_self _ _) _).trans ?_
  exact iota_single_apply .tc S1000x2048 32 0 _ (ix2 k r)

/-- The one-hot of the labels against the class grid, read at (k, r): 1 where label r is class k, else 0. -/
theorem pay4_apply (x1 : Vec Ideal S1x2048 .i32) (k : Fin 1000) (r : Fin 2048) :
    k0_pay4 (F := Ideal) x1 k0_pay3 (ix2 k r)
      = if (x1 (ix2 0 r) : BitVec 32) = BitVec.ofNat 32 k.val then (1 : EReal) else 0 := by
  unfold k0_pay4
  show (FloatOps.sitofp (F := Ideal) .f32
      ((IntOp.cmpi .eq (broadcastTo S1000x2048 (shapeCast S1x2048 x1 shapeCasts_S1x2048_S1x2048)
        broadcasts_S1x2048_S1000x2048 (ix2 k r)) (k0_pay3 (ix2 k r))).setWidth 32) : EReal) = _
  rw [pay3_apply]
  have hb : broadcastTo S1000x2048 (shapeCast S1x2048 x1 shapeCasts_S1x2048_S1x2048)
        broadcasts_S1x2048_S1000x2048 (ix2 k r) = x1 (ix2 0 r) := by
    refine (broadcastTo_1b_ab_apply _ _ k r).trans ?_
    exact congrFun (shapeCast_self _ _) _
  rw [hb]
  exact Cert.SegMath.onehot_apply _ k

/-! ## The two accumulating payloads -/

/-- The feature accumulator at (0, k, d): what it held plus the sum of the rows of `x0` whose label is class k,
    at column d (the one-hot row times the feature column, a sum of 0/1 multiples). -/
theorem pay5_apply (x0 : Vec Ideal S2048x256 .f32) (x1 : Vec Ideal S1x2048 .i32) (acc : Vec Ideal S1x1000x256 .f32)
    (k : Fin 1000) (d : Fin 256) :
    k0_pay5 (F := Ideal) x0 x1 k0_pay3 acc (ix3 0 k d)
      = acc (ix3 0 k d) + ∑ r : Fin 2048, (if (x1 (ix2 0 r) : BitVec 32) = BitVec.ofNat 32 k.val then x0 (ix2 r d) else 0) := by
  unfold k0_pay5
  refine (shapeCast_ab_1ab_apply _ _ 0 k d).trans ?_
  refine congrArg₂ (· + ·) (shapeCast_1ab_ab_apply acc _ k d) ?_
  refine (dot_apply _ _ k d).trans ?_
  refine (Finset.sum_congr rfl fun r _ => ?_).trans
    (Cert.SegMath.sum_onehot_mul (fun r : Fin 2048 => (x1 (ix2 0 r) : BitVec 32) = BitVec.ofNat 32 k.val) (fun r => x0 (ix2 r d)))
  show k0_pay4 (F := Ideal) x1 k0_pay3 (ix2 k r) * x0 (ix2 r d) = _
  rw [pay4_apply]

/-- The count accumulator at (0, k, 0): what it held plus the number of labels equal to class k (the lane sum of the
    one-hot row). -/
theorem pay6_apply (x1 : Vec Ideal S1x2048 .i32) (acc : Vec Ideal S1x1000x1 .f32) (k : Fin 1000) :
    k0_pay6 (F := Ideal) x1 k0_pay3 acc (ix3 0 k 0)
      = acc (ix3 0 k 0) + ∑ r : Fin 2048, (if (x1 (ix2 0 r) : BitVec 32) = BitVec.ofNat 32 k.val then (1 : EReal) else 0) := by
  unfold k0_pay6
  refine (shapeCast_ab_1ab_apply _ _ 0 k 0).trans ?_
  refine congrArg₂ (· + ·) (shapeCast_1ab_ab_apply acc _ k 0) ?_
  -- a [1000] vector viewed [1000, 1]: (k, 0) and k have the same row-major position
  refine (shapeCast_apply _ _ (ix2 k 0) (ix1 k) ?_).trans ?_
  · rw [Shape.rowMajor_val_one, Shape.rowMajor_val_two]
    show k.val = k.val * 1 + 0
    omega
  refine (Ideal.multiReduction_add_single _ _ reduces_S1000x2048_S1000 _ _ (ix1 k)).trans ?_
  refine Finset.sum_congr rfl fun r _ => ?_
  -- the reduced index k with the lane coordinate r inserted is (k, r)
  have hl : reduces_S1000x2048_S1000.lift (ix1 k) r = ix2 k r := by
    funext ax; apply Fin.ext
    match ax with
    | ⟨0, _⟩ => rfl
    | ⟨1, _⟩ => rfl
  rw [hl]
  exact pay4_apply x1 k r

end Cert.KernelIdeal.Payload

end
-- ==== Proof.KernelAcc.lean ====
import proofs.«405858_j83502754169266_3_alg».proof.Proof.Gen.KernelIdeal.Frame
import proofs.«405858_j83502754169266_3_alg».proof.Proof.KernelPieces
import proofs.«405858_j83502754169266_3_alg».proof.Proof.KernelPayload
import Idealize.ShloMosaic.Lib.Pipeline.Value
import Idealize.ShloMosaic.Lib.ValueIdx

noncomputable section

/-! The pallas_call's two result arrays, read as sums. Grid point `n = 128·q + j` (core `q`, step `j`) adds to
    core `q`'s block the one-hot product of rows `2048·n … 2048·n + 2047`; the block is reset at `j = 0` and written
    back at `j = 127`. So block `q` of the sums ends at `Σ_{s<128} Σ_{r<2048} [label = k]·x` over the rows
    `2048·(128·q + s) + r`, and block `q` of the counts at the same sum of ones. -/

namespace Cert.KernelIdeal.Acc

open Idealize.ShloMosaic Idealize.ShloMosaic.TcCoe Idealize.SL.Sem Cert.KernelIdeal Cert.KernelIdeal.Gen ValueIdx
open Idealize.ShloMosaic.Pipeline (Dat)

variable (m : (ℓ : Loc nD τ sig) → Buf (Elt Ideal) ℓ)

/-- The rows as the region finds them. -/
abbrev xarr (c : Dev nD) : Vec Ideal S524288x256 .f32 := V m c main_arg0
/-- The routed labels as the region finds them, one row of 524288. -/
abbrev larr (c : Dev nD) : Vec Ideal S1x524288 .i32 := V m c main_v6
/-- Point `t`'s block of rows and of labels. -/
abbrev xblk (c : Dev nD) (t : Fin cfg0.N) : Vec Ideal S2048x256 .f32 := iblk m c 0 t
abbrev lblk (c : Dev nD) (t : Fin cfg0.N) : Vec Ideal S1x2048 .i32 := iblk m c 1 t

/-- Row `n`, column `d` (zero past the array: never used). -/
def xrow (c : Dev nD) (n : ℕ) (d : Fin 256) : EReal := if h : n < 524288 then xarr m c (ix2 ⟨n, h⟩ d) else 0
/-- Row `n`'s routed label. -/
def lab (c : Dev nD) (n : ℕ) : BitVec 32 := if h : n < 524288 then larr m c (ix2 0 ⟨n, h⟩) else 0#32

/-- What grid point `p` adds to class `k`, column `d` of the sums; -/
def add2 (c : Dev nD) (p : ℕ) (k : Fin 1000) (d : Fin 256) : EReal :=
  ∑ r : Fin 2048, if lab m c (2048 * p + r.val) = BitVec.ofNat 32 k.val then xrow m c (2048 * p + r.val) d else 0
/-- and to class `k` of the counts. -/
def add3 (c : Dev nD) (p : ℕ) (k : Fin 1000) : EReal :=
  ∑ r : Fin 2048, if lab m c (2048 * p + r.val) = BitVec.ofNat 32 k.val then (1 : EReal) else 0

theorem idx0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx0_1 : ∀ t : Fin cfg0.N, win0_1.index t (0 : Fin 2) = 0 ∧ win0_1.index t (1 : Fin 2) = t.val :=
  (by decide +kernel : ∀ t : Fin grid0.N, win0_1.index t (0 : Fin 2) = 0 ∧ win0_1.index t (1 : Fin 2) = t.val)

/-- The block of rows at point `t` is rows `2048·t …` of the array. -/
theorem xblk_apply (c : Dev nD) (t : Fin cfg0.N) (r : Fin 2048) (d : Fin 256) :
    xblk m c t (ix2 r d) = xrow m c (2048 * t.val + r.val) d := by
  have hN : t.val < 256 := lt_of_lt_of_eq t.isLt (show cfg0.N = 256 from N_0)
  have hlt : 2048 * t.val + r.val < 524288 := by have := r.isLt; omega
  unfold xrow; rw [dif_pos hlt]
  show iblk m c 0 t (ix2 r d) = _
  unfold iblk
  rw [View.read_apply]
  show V m c main_arg0 (((cfg0.win 0).blk t).view.emb (ix2 r d)) = V m c main_arg0 (ix2 ⟨2048 * t.val + r.val, hlt⟩ d)
  refine congrArg (V m c main_arg0) ?_
  funext a
  apply Fin.ext
  match a with
  | ⟨0, _⟩ => show win0_0.index t 0 * 2048 + 1 * r.val = 2048 * t.val + r.val; rw [(idx0_0 t).1]; omega
  | ⟨1, _⟩ => show win0_0.index t 1 * 256 + 1 * d.val = d.val; rw [(idx0_0 t).2]; omega

/-- The block of labels at point `t` is labels `2048·t …`. -/
theorem lblk_apply (c : Dev nD) (t : Fin cfg0.N) (r : Fin 2048) :
    (lblk m c t (ix2 0 r) : BitVec 32) = lab m c (2048 * t.val + r.val) := by
  have hN : t.val < 256 := lt_of_lt_of_eq t.isLt (show cfg0.N = 256 from N_0)
  have hlt : 2048 * t.val + r.val < 524288 := by have := r.isLt; omega
  unfold lab; rw [dif_pos hlt]
  show iblk m c 1 t (ix2 0 r) = _
  unfold iblk
  rw [View.read_apply]
  show V m c main_v6 (((cfg0.win 1).blk t).view.emb (ix2 0 r)) = V m c main_v6 (ix2 0 ⟨2048 * t.val + r.val, hlt⟩)
  refine congrArg (V m c main_v6) ?_
  funext a
  apply Fin.ext
  match a with
  | ⟨0, _⟩ => show win0_1.index t 0 * 1 + 1 * 0 = 0; rw [(idx0_1 t).1]
  | ⟨1, _⟩ => show win0_1.index t 1 * 2048 + 1 * r.val = 2048 * t.val + r.val; rw [(idx0_1 t).2]; omega

/-- One accumulating step of the sums at an index, over the point's blocks. -/
theorem step2 (c : Dev nD) (t : Fin cfg0.N) (acc : Vec Ideal S1x1000x256 .f32) (k : Fin 1000) (d : Fin 256) :
    k0_pay5 (F := Ideal) (xblk m c t) (lblk m c t) k0_pay3 acc (ix3 0 k d) = acc (ix3 0 k d) + add2 m c t.val k d := by
  rw [Payload.pay5_apply]
  unfold add2
  refine congrArg (acc (ix3 0 k d) + ·) (Finset.sum_congr rfl fun r _ => ?_)
  rw [lblk_apply, xblk_apply]

/-- One accumulating step of the counts at an index. -/
theorem step3 (c : Dev nD) (t : Fin cfg0.N) (acc : Vec Ideal S1x1000x1 .f32) (k : Fin 1000) :
    k0_pay6 (F := Ideal) (lblk m c t) k0_pay3 acc (ix3 0 k 0) = acc (ix3 0 k 0) + add3 m c t.val k := by
  rw [Payload.pay6_apply]
  unfold add3
  refine congrArg (acc (ix3 0 k 0) + ·) (Finset.sum_congr rfl fun r _ => ?_)
  rw [lblk_apply]

/-- THE INVARIANT. After grid point `n` the carried scratch holds the class grid, and the two staging blocks hold
    the partial sums over the points `128·(n / 128) … n` of the core's run. -/
theorem outsAt_inv (c : Dev nD) : ∀ (n : ℕ) (h : n < cfg0.N),
    (outsAt0 m c n h).2.2 = k0_pay3
    ∧ (∀ (k : Fin 1000) (d : Fin 256), (outsAt0 m c n h).1 (ix3 0 k d)
        = ∑ s ∈ Finset.range (n % 128 + 1), add2 m c (128 * (n / 128) + s) k d)
    ∧ (∀ k : Fin 1000, (outsAt0 m c n h).2.1 (ix3 0 k 0)
        = ∑ s ∈ Finset.range (n % 128 + 1), add3 m c (128 * (n / 128) + s) k) := by
  intro n
  induction n with
  | zero =>
    intro h
    rw [outsAt0_A m c ⟨0, h⟩ rfl]
    dsimp only
    refine ⟨Pieces.sout_A_0 .., fun k d => ?_, fun k => ?_⟩
    · rw [Pieces.out_A_2]
      refine (step2 m c ⟨0, h⟩ _ k d).trans ?_
      rw [Payload.pay1_apply, zero_add]
      simp
    · rw [Pieces.out_A_3]
      refine (step3 m c ⟨0, h⟩ _ k).trans ?_
      rw [Payload.pay2_apply, zero_add]
      simp
  | succ n ih =>
    intro h
    have hN : cfg0.N = 256 := N_0
    by_cases h0 : (n + 1) % 128 = 0
    · rw [outsAt0_A m c ⟨n + 1, h⟩ h0]
      dsimp only
      have e1 : (n + 1) % 128 + 1 = 1 := by omega
      have e2 : 128 * ((n + 1) / 128) = n + 1 := by omega
      refine ⟨Pieces.sout_A_0 .., fun k d => ?_, fun k => ?_⟩
      · rw [Pieces.out_A_2]
        refine (step2 m c ⟨n + 1, h⟩ _ k d).trans ?_
        rw [Payload.pay1_apply, zero_add, e1, e2, Finset.sum_range_one]
      · rw [Pieces.out_A_3]
        refine (step3 m c ⟨n + 1, h⟩ _ k).trans ?_
        rw [Payload.pay2_apply, zero_add, e1, e2, Finset.sum_range_one]
    · obtain ⟨ihs, ih2, ih3⟩ := ih (Nat.lt_of_succ_lt h)
      rw [outsAt0_B m c ⟨n + 1, h⟩ h0]
      dsimp only
      have e1 : (n + 1) % 128 + 1 = (n % 128 + 1) + 1 := by omega
      have e2 : (n + 1) / 128 = n / 128 := by omega
      have e3 : 128 * (n / 128) + (n % 128 + 1) = n + 1 := by omega
      refine ⟨?_, fun k d => ?_, fun k => ?_⟩
      · unfold sout0_B_0; exact ihs
      · rw [Pieces.out_B_2]
        simp only [Nat.add_sub_cancel]
        rw [ihs]
        refine (step2 m c ⟨n + 1, h⟩ _ k d).trans ?_
        rw [ih2 k d, e1, e2, Finset.sum_range_succ _ (n % 128 + 1), e3]
      · rw [Pieces.out_B_3]
        simp only [Nat.add_sub_cancel]
        rw [ihs]
        refine (step3 m c ⟨n + 1, h⟩ _ k).trans ?_
        rw [ih3 k, e1, e2, Finset.sum_range_succ _ (n % 128 + 1), e3]

/-! ## The two result arrays after the run -/

/-- Core `q`'s block of the sums at the end of its run of 128 points. -/
def G2 (c : Dev nD) : Vec Ideal S2x1000x256 .f32 := fun i =>
  ∑ s ∈ Finset.range 128, add2 m c (128 * (i 0).val + s) ⟨(i 1).val, (i 1).isLt⟩ ⟨(i 2).val, (i 2).isLt⟩
/-- Core `q`'s block of the counts at the end of its run. -/
def G3 (c : Dev nD) : Vec Ideal S2x1000x1 .f32 := fun i =>
  ∑ s ∈ Finset.range 128, add3 m c (128 * (i 0).val + s) ⟨(i 1).val, (i 1).isLt⟩

theorem idx0_2 : ∀ t : Fin cfg0.N, win0_2.index t (0 : Fin 3) = t.val / 128 ∧ win0_2.index t (1 : Fin 3) = 0 ∧ win0_2.index t (2 : Fin 3) = 0 :=
  (by decide +kernel : ∀ t : Fin grid0.N, win0_2.index t (0 : Fin 3) = t.val / 128 ∧ win0_2.index t (1 : Fin 3) = 0 ∧ win0_2.index t (2 : Fin 3) = 0)
theorem idx0_3 : ∀ t : Fin cfg0.N, win0_3.index t (0 : Fin 3) = t.val / 128 ∧ win0_3.index t (1 : Fin 3) = 0 ∧ win0_3.index t (2 : Fin 3) = 0 :=
  (by decide +kernel : ∀ t : Fin grid0.N, win0_3.index t (0 : Fin 3) = t.val / 128 ∧ win0_3.index t (1 : Fin 3) = 0 ∧ win0_3.index t (2 : Fin 3) = 0)

/-- What a writing-back point (the last of a core's run) writes of the sums is that core's block of `G2`. -/
theorem flushed2_eq (c : Dev nD) (t : Fin cfg0.N) (hf : (cfg0.win 2).flush t = true) :
    (dats m 0 c).flushed 2 t = ((cfg0.win 2).blk t).view.read (Elt Ideal) (G2 m c) := by
  have hN : t.val < 256 := lt_of_lt_of_eq t.isLt (show cfg0.N = 256 from N_0)
  have h127 : t.val % 128 = 127 := (flush0_2 t).mp hf
  show (cfg0.win 2).cut (grid0.coords t) ((dats m 0 c).after 2 t) = _
  rw [after0_2]
  funext y
  obtain ⟨u, k, d, rfl⟩ : ∃ (u : Fin 1) (k : Fin 1000) (d : Fin 256), y = ix3 u k d := ⟨y 0, y 1, y 2, eq_ix3 y⟩
  obtain rfl : u = 0 := Subsingleton.elim _ _
  rw [View.read_apply]
  refine ((outsAt_inv m c t.val t.isLt).2.1 k d).trans ?_
  unfold G2
  have e1 : t.val % 128 + 1 = 128 := by omega
  have e0 : ((((cfg0.win 2).blk t).view.emb (ix3 0 k d)) 0).val = t.val / 128 := by
    show win0_2.index t 0 * 1 + 1 * 0 = t.val / 128
    rw [(idx0_2 t).1]; omega
  have ek : ((((cfg0.win 2).blk t).view.emb (ix3 0 k d)) 1).val = k.val := by
    show win0_2.index t 1 * 1000 + 1 * k.val = k.val
    rw [(idx0_2 t).2.1]; omega
  have ed : ((((cfg0.win 2).blk t).view.emb (ix3 0 k d)) 2).val = d.val := by
    show win0_2.index t 2 * 256 + 1 * d.val = d.val
    rw [(idx0_2 t).2.2]; omega
  rw [e1]
  refine Finset.sum_congr rfl fun s _ => ?_
  rw [e0]
  congr 1 <;> exact Fin.ext (by first | exact ek.symm | exact ed.symm)

/-- The same for the counts. -/
theorem flushed3_eq (c : Dev nD) (t : Fin cfg0.N) (hf : (cfg0.win 3).flush t = true) :
    (dats m 0 c).flushed 3 t = ((cfg0.win 3).blk t).view.read (Elt Ideal) (G3 m c) := by
  have hN : t.val < 256 := lt_of_lt_of_eq t.isLt (show cfg0.N = 256 from N_0)
  have h127 : t.val % 128 = 127 := (flush0_3 t).mp hf
  show (cfg0.win 3).cut (grid0.coords t) ((dats m 0 c).after 3 t) = _
  rw [after0_3]
  funext y
  obtain ⟨u, k, z, rfl⟩ : ∃ (u : Fin 1) (k : Fin 1000) (z : Fin 1), y = ix3 u k z := ⟨y 0, y 1, y 2, eq_ix3 y⟩
  obtain rfl : u = 0 := Subsingleton.elim _ _
  obtain rfl : z = 0 := Subsingleton.elim _ _
  rw [View.read_apply]
  refine ((outsAt_inv m c t.val t.isLt).2.2 k).trans ?_
  unfold G3
  have e1 : t.val % 128 + 1 = 128 := by omega
  have e0 : ((((cfg0.win 3).blk t).view.emb (ix3 0 k 0)) 0).val = t.val / 128 := by
    show win0_3.index t 0 * 1 + 1 * 0 = t.val / 128
    rw [(idx0_3 t).1]; omega
  have ek : ((((cfg0.win 3).blk t).view.emb (ix3 0 k 0)) 1).val = k.val := by
    show win0_3.index t 1 * 1000 + 1 * k.val = k.val
    rw [(idx0_3 t).2.1]; omega
  rw [e1]
  refine Finset.sum_congr rfl fun s _ => ?_
  rw [e0]
  congr 1; exact Fin.ext ek.symm

/-- Every index of the sums lies in the block core `i 0`'s last point writes back. -/
theorem cover2 (i : S2x1000x256.Idx) :
    ∃ t : Fin cfg0.N, (cfg0.win 2).flush t = true ∧ i ∈ ((cfg0.win 2).blk t).view.set := by
  have hN : cfg0.N = 256 := N_0
  have h0 : (i 0 : Nat) < 2 := (i 0).isLt
  have h1 : (i 1 : Nat) < 1000 := (i 1).isLt
  have h2 : (i 2 : Nat) < 256 := (i 2).isLt
  obtain ⟨t, ht⟩ : ∃ t : Fin cfg0.N, t.val = 128 * (i 0).val + 127 := ⟨⟨128 * (i 0).val + 127, by omega⟩, rfl⟩
  refine ⟨t, (flush0_2 t).mpr (by omega), ?_⟩
  show i ∈ ((View.whole main_v7_0).slice (win0_2.rect t)).set
  rw [View.set_slice_whole, Rect.mem_set_unit]
  intro a
  have hi := idx0_2 t
  have hq : t.val / 128 = (i 0).val := by omega
  match a with
  | ⟨0, _⟩ =>
    show win0_2.index t 0 * 1 ≤ (i 0 : Nat) ∧ (i 0 : Nat) < win0_2.index t 0 * 1 + 1
    rw [hi.1]; omega
  | ⟨1, _⟩ =>
    show win0_2.index t 1 * 1000 ≤ (i 1 : Nat) ∧ (i 1 : Nat) < win0_2.index t 1 * 1000 + 1000
    rw [hi.2.1]; omega
  | ⟨2, _⟩ =>
    show win0_2.index t 2 * 256 ≤ (i 2 : Nat) ∧ (i 2 : Nat) < win0_2.index t 2 * 256 + 256
    rw [hi.2.2]; omega

theorem cover3 (i : S2x1000x1.Idx) :
    ∃ t : Fin cfg0.N, (cfg0.win 3).flush t = true ∧ i ∈ ((cfg0.win 3).blk t).view.set := by
  have hN : cfg0.N = 256 := N_0
  have h0 : (i 0 : Nat) < 2 := (i 0).isLt
  have h1 : (i 1 : Nat) < 1000 := (i 1).isLt
  have h2 : (i 2 : Nat) < 1 := (i 2).isLt
  obtain ⟨t, ht⟩ : ∃ t : Fin cfg0.N, t.val = 128 * (i 0).val + 127 := ⟨⟨128 * (i 0).val + 127, by omega⟩, rfl⟩
  refine ⟨t, (flush0_3 t).mpr (by omega), ?_⟩
  show i ∈ ((View.whole main_v7_1).slice (win0_3.rect t)).set
  rw [View.set_slice_whole, Rect.mem_set_unit]
  intro a
  have hi := idx0_3 t
  have hq : t.val / 128 = (i 0).val := by omega
  match a with
  | ⟨0, _⟩ =>
    show win0_3.index t 0 * 1 ≤ (i 0 : Nat) ∧ (i 0 : Nat) < win0_3.index t 0 * 1 + 1
    rw [hi.1]; omega
  | ⟨1, _⟩ =>
    show win0_3.index t 1 * 1000 ≤ (i 1 : Nat) ∧ (i 1 : Nat) < win0_3.index t 1 * 1000 + 1000
    rw [hi.2.1]; omega
  | ⟨2, _⟩ =>
    show win0_3.index t 2 * 1 ≤ (i 2 : Nat) ∧ (i 2 : Nat) < win0_3.index t 2 * 1 + 1
    rw [hi.2.2]; omega

/-- The sums array after the run. -/
theorem final2 (c : Dev nD) : (dats m 0 c).arrAt 2 cfg0.N = G2 m c :=
  (dats m 0 c).arrAt_eq_of_cover 2 (G2 m c) (flushed2_eq m c) cover2
/-- The counts array after the run. -/
theorem final3 (c : Dev nD) : (dats m 0 c).arrAt 3 cfg0.N = G3 m c :=
  (dats m 0 c).arrAt_eq_of_cover 3 (G3 m c) (flushed3_eq m c) cover3

theorem G2_apply (c : Dev nD) (q : Fin 2) (k : Fin 1000) (d : Fin 256) :
    G2 m c (ix3 q k d) = ∑ s ∈ Finset.range 128, add2 m c (128 * q.val + s) k d := rfl
theorem G3_apply (c : Dev nD) (q : Fin 2) (k : Fin 1000) :
    G3 m c (ix3 q k 0) = ∑ s ∈ Finset.range 128, add3 m c (128 * q.val + s) k := rfl

end Cert.KernelIdeal.Acc

end
-- ==== Proof.RefScatter.lean ====
import proofs.«405858_j83502754169266_3_alg».proof.ReferenceIdeal
import proofs.«405858_j83502754169266_3_alg».proof.Proof.SegMath
import Idealize.ShloMosaic.PureOps.Ideal
import Idealize.ShloMosaic.Lib.ValueIdx

noncomputable section

namespace Cert.ReferenceIdeal.Scatter

open Idealize.ShloMosaic Cert.ReferenceIdeal ValueIdx

/-! ## Generic facts: where an update lands, and sums over a rank-1 index set -/

/-- An update index `j` lands on the operand index `i` exactly when, on every operand axis, the signed start plus
    the window coordinate is `i`'s coordinate (then it is inside the operand on that axis; otherwise it is dropped
    or lands elsewhere). -/
private theorem resultIdx?_eq_some_iff {s si u : Shape} (D : ScatterDims s si u) {w : Nat} (j : u.Idx)
    (idx : IVec si w) (i : s.Idx) :
    D.resultIdx? j idx = some i ↔ ∀ a, D.start j idx a + (D.window j a : Int) = ((i a).val : Int) := by
  unfold ScatterDims.resultIdx?
  split
  · next h =>
    constructor
    · intro e a
      have e' := Option.some.inj e
      subst e'
      show _ = (((D.start j idx a + (D.window j a : Int)).toNat : Nat) : Int)
      rw [Int.toNat_of_nonneg (h a).1]
    · intro e
      refine congrArg some (funext fun a => Fin.ext ?_)
      show (D.start j idx a + (D.window j a : Int)).toNat = (i a).val
      rw [e a]; rfl
  · next h =>
    constructor
    · intro e; cases e
    · intro e
      exfalso; apply h; intro a
      rw [e a]
      exact ⟨Int.natCast_nonneg _, by exact_mod_cast (i a).isLt⟩

/-- A rank-1 index set is its one coordinate's range … -/
private def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

variable [Facts]
open Facts₀ Facts

/-- The labels broadcast to a column: row `b` of the column is label `b`. -/
private theorem bcast_apply (l : IVec S524288 32) (b : Fin 524288) (c : Fin 1) :
    broadcastInDim S524288x1 ![0] bcast_S524288_S524288x1_0 l (ix2 b c) = l (ix1 b) := by
  unfold broadcastInDim
  refine congrArg l (funext fun a => ?_)
  match a with
  | ⟨0, _⟩ => rfl

/-! ## The counts' scatter: update `b` lands on segment `k` iff the signed index word `b` is `k` -/

/-- The start on the operand's one axis is the index word of row `b`, read signed. -/
private theorem counts_start {w : Nat} (b : Fin 524288) (idx : IVec S524288x1 w) :
    scatter_S1000_S524288x1_S524288_n_0_0_1.start (ix1 b) idx 0 = (idx (ix2 b 0)).toInt := by
  unfold ScatterDims.start
  rw [dif_pos (show (0 : Fin 1) ∈ scatter_S1000_S524288x1_S524288_n_0_0_1.scatterDimsToOperandDims from
    List.mem_singleton.mpr rfl)]
  refine congrArg (fun t => (idx t).toInt) (funext fun c => Fin.ext ?_)
  match c with
  | ⟨0, _⟩ => rfl
  | ⟨1, _⟩ => rfl

/-- The operand's one axis is an inserted window axis: the window coordinate there is `0`. -/
private theorem counts_window (j : S524288.Idx) : scatter_S1000_S524288x1_S524288_n_0_0_1.window j 0 = 0 := by
  unfold ScatterDims.window
  rw [dif_neg]
  show ¬ (0 : Fin 1) ∈ S1000.kept [0]
  decide

private theorem counts_resultIdx? {w : Nat} (b : Fin 524288) (idx : IVec S524288x1 w) (k : Fin 1000) :
    scatter_S1000_S524288x1_S524288_n_0_0_1.resultIdx? (ix1 b) idx = some (ix1 k)
      ↔ (idx (ix2 b 0)).toInt = (k.val : Int) := by
  rw [resultIdx?_eq_some_iff, Fin.forall_fin_one, counts_start, counts_window]
  simp

theorem counts_apply (z : FVec Ideal S1000 .f32) (l : IVec S524288 32) (u : FVec Ideal S524288 .f32) (k : Fin 1000) :
    Host.scatterAdd (F := Ideal) scatter_S1000_S524288x1_S524288_n_0_0_1 z
        (broadcastInDim S524288x1 ![0] bcast_S524288_S524288x1_0 l) u (ix1 k)
      = z (ix1 k) + ∑ b : Fin 524288, (if l (ix1 b) = BitVec.ofNat 32 k.val then u (ix1 b) else 0) := by
  unfold Host.scatterAdd
  rw [Ideal.hostScatterAdd_def]
  unfold Ideal.hostScatterAdd
  refine congrArg (fun t => z (ix1 k) + t) ?_
  rw [Finset.sum_filter, sum_idx1]
  refine Finset.sum_congr rfl fun b _ => ?_
  refine if_congr ?_ rfl rfl
  rw [counts_resultIdx?, bcast_apply, Cert.SegMath.toInt_eq_iff]

/-! ## The sums' scatter: update `(b, e)` lands on `(k, d)` iff the signed index word `b` is `k` and `e = d` -/

/-- The start on the segment axis is the index word of row `b`, read signed … -/
private theorem sums_start0 {w : Nat} (b : Fin 524288) (e : Fin 256) (idx : IVec S524288x1 w) :
    scatter_S1000x256_S524288x1_S524288x256_1_0_0_1.start (ix2 b e) idx 0 = (idx (ix2 b 0)).toInt := by
  unfold ScatterDims.start
  rw [dif_pos (show (0 : Fin 2) ∈ scatter_S1000x256_S524288x1_S524288x256_1_0_0_1.scatterDimsToOperandDims from
    List.mem_singleton.mpr rfl)]
  refine congrArg (fun t => (idx t).toInt) (funext fun c => Fin.ext ?_)
  match c with
  | ⟨0, _⟩ => rfl
  | ⟨1, _⟩ => rfl

/-- … and `0` on the feature axis, which the index vector does not name. -/
private theorem sums_start1 {w : Nat} (j : S524288x256.Idx) (idx : IVec S524288x1 w) :
    scatter_S1000x256_S524288x1_S524288x256_1_0_0_1.start j idx 1 = 0 := by
  unfold ScatterDims.start
  rw [dif_neg]
  show ¬ (1 : Fin 2) ∈ ([0] : List (Fin 2))
  decide

/-- The segment axis is an inserted window axis: the window coordinate there is `0` … -/
private theorem sums_window0 (j : S524288x256.Idx) :
    scatter_S1000x256_S524288x1_S524288x256_1_0_0_1.window j 0 = 0 := by
  unfold ScatterDims.window
  rw [dif_neg]
  show ¬ (0 : Fin 2) ∈ S1000x256.kept [0]
  decide

/-- … and on the feature axis it is the update's feature coordinate. -/
private theorem sums_window1 (b : Fin 524288) (e : Fin 256) :
    scatter_S1000x256_S524288x1_S524288x256_1_0_0_1.window (ix2 b e) 1 = e.val := by
  unfold ScatterDims.window
  rw [dif_pos (show (1 : Fin 2) ∈ scatter_S1000x256_S524288x1_S524288x256_1_0_0_1.sKept by
    show (1 : Fin 2) ∈ S1000x256.kept [0]
    decide)]
  rfl

private theorem sums_resultIdx? {w : Nat} (b : Fin 524288) (e : Fin 256) (idx : IVec S524288x1 w) (k : Fin 1000)
    (d : Fin 256) :
    scatter_S1000x256_S524288x1_S524288x256_1_0_0_1.resultIdx? (ix2 b e) idx = some (ix2 k d)
      ↔ (idx (ix2 b 0)).toInt = (k.val : Int) ∧ e = d := by
  rw [resultIdx?_eq_some_iff, Fin.forall_fin_two, sums_start0, sums_window0, sums_start1, sums_window1]
  simp [Fin.ext_iff]

theorem sums_apply (z : FVec Ideal S1000x256 .f32) (l : IVec S524288 32) (x : FVec Ideal S524288x256 .f32)
    (k : Fin 1000) (d : Fin 256) :
    Host.scatterAdd (F := Ideal) scatter_S1000x256_S524288x1_S524288x256_1_0_0_1 z
        (broadcastInDim S524288x1 ![0] bcast_S524288_S524288x1_0 l) x (ix2 k d)
      = z (ix2 k d) + ∑ b : Fin 524288, (if l (ix1 b) = BitVec.ofNat 32 k.val then x (ix2 b d) else 0) := by
  unfold Host.scatterAdd
  rw [Ideal.hostScatterAdd_def]
  unfold Ideal.hostScatterAdd
  refine congrArg (fun t => z (ix2 k d) + t) ?_
  rw [Finset.sum_filter, sum_idx2]
  refine Finset.sum_congr rfl fun b _ => ?_
  -- within row `b`, only the feature coordinate `e = d` contributes
  have h : ∀ e : Fin 256,
      (if scatter_S1000x256_S524288x1_S524288x256_1_0_0_1.resultIdx? (ix2 b e)
            (broadcastInDim S524288x1 ![0] bcast_S524288_S524288x1_0 l) = some (ix2 k d) then x (ix2 b e) else 0)
        = if e = d then (if l (ix1 b) = BitVec.ofNat 32 k.val then x (ix2 b e) else 0) else 0 := by
    intro e
    rw [← ite_and]
    refine if_congr ?_ rfl rfl
    rw [sums_resultIdx?, bcast_apply, Cert.SegMath.toInt_eq_iff, and_comm]
  rw [Finset.sum_congr rfl fun e _ => h e, Finset.sum_ite_eq' Finset.univ d]
  simp

end Cert.ReferenceIdeal.Scatter

end
-- ==== Proof.Bridge.lean ====
import proofs.«405858_j83502754169266_3_alg».proof.Proof.KernelAcc
import proofs.«405858_j83502754169266_3_alg».proof.Proof.KernelHost
import proofs.«405858_j83502754169266_3_alg».proof.Proof.RefScatter
import proofs.«405858_j83502754169266_3_alg».proof.Proof.SegMath
import proofs.«405858_j83502754169266_3_alg».proof.Proof.Gen.ReferenceIdeal
import Idealize.ShloMosaic.PureOps.Ideal.Laws
import Idealize.ShloMosaic.Lib.IdealHost
import Idealize.ShloMosaic.Lib.Pipeline.Value
import Idealize.ShloMosaic.Lib.ValueIdx

noncomputable section

/-! The two programs' counts and sums are one function of the labels and the rows. The kernel adds, over the two
    cores, the 128 steps of a core and the 2048 rows of a step, `[routed label = k]·x`: that is the sum over all
    524288 rows (`sum_blocks`), and a routed label is the word of a class `k < 1000` exactly when the label itself is
    (`route_eq_iff`). The reference's scatter-add puts row `b` on class `k` exactly when label `b`, read signed, is
    `k`: the same rows. -/

namespace Cert.Bridge

open Idealize.ShloMosaic Idealize.ShloMosaic.TcCoe Idealize.SL.Sem ValueIdx
open Cert.KernelIdeal Cert.KernelIdeal.Gen
open Idealize.ShloMosaic.Pipeline (Dat)

variable (m : (ℓ : Loc nD τ sig) → Buf (Elt Ideal) ℓ)

/-- The labels and the rows the kernel is launched with. -/
abbrev labels (c : Dev nD) : IVec S524288 32 := m ((c.tc : Thread nD τ).loc main_arg1)
abbrev rows (c : Dev nD) : FVec Ideal S524288x256 .f32 := m ((c.tc : Thread nD τ).loc main_arg0)

/-- The kernel's counts and sums: the two cores' blocks added by the host. -/
abbrev cntK (c : Dev nD) : FVec Ideal S1000 .f32 :=
  shapeCast S1000 (Host.reduceAdd ((dats m 0 c).arrAt 3 cfg0.N : FVec Ideal S2x1000x1 .f32) (constant S_ .f32 0x00000000#32) reducesTo_S2x1000x1_S1000x1_d0 h_S_) shapeCasts_S1000x1_S1000
abbrev smK (c : Dev nD) : FVec Ideal S1000x256 .f32 :=
  Host.reduceAdd ((dats m 0 c).arrAt 2 cfg0.N : FVec Ideal S2x1000x256 .f32) (constant S_ .f32 0x00000000#32) reducesTo_S2x1000x256_S1000x256_d0 h_S_

theorem lab_val (c : Dev nD) (b : Fin 524288) : Acc.lab m c b.val = Cert.SegMath.route (labels m c (ix1 b)) := by
  unfold Acc.lab
  rw [dif_pos b.isLt]
  exact HostSide.routed_apply m c b

theorem xrow_val (c : Dev nD) (b : Fin 524288) (d : Fin 256) : Acc.xrow m c b.val d = rows m c (ix2 b d) := by
  unfold Acc.xrow
  rw [dif_pos b.isLt]
  show V m c main_arg0 (ix2 b d) = _
  rw [V_main_arg0]

/-- The kernel's sums at class `k`, column `d`. -/
theorem smK_apply (c : Dev nD) (k : Fin 1000) (d : Fin 256) :
    smK m c (ix2 k d) = Ideal.ofBits .f32 0x00000000#32
      + ∑ b : Fin 524288, (if labels m c (ix1 b) = BitVec.ofNat 32 k.val then rows m c (ix2 b d) else 0) := by
  unfold smK
  rw [Acc.final2]
  simp only [Host.reduceAdd, Ideal.hostReduceAdd_def]
  rw [Ideal.hostReduceAdd_single reducesTo_S2x1000x256_S1000x256_d0 (by decide)]
  refine congrArg₂ (· + ·) rfl ?_
  have hl : ∀ q : Fin 2, Acc.G2 m c ((by decide : S2x1000x256.Reduces [0] S1000x256).lift (ix2 k d) q)
      = ∑ s ∈ Finset.range 128, Acc.add2 m c (128 * q.val + s) k d := fun q =>
    (congrArg (Acc.G2 m c) (funext fun a => Fin.ext (by match a with | ⟨0, _⟩ => rfl | ⟨1, _⟩ => rfl | ⟨2, _⟩ => rfl))).trans
      (Acc.G2_apply m c q k d)
  refine (Finset.sum_congr rfl fun q _ => hl q).trans ?_
  simp only [Acc.add2]
  refine (Cert.SegMath.sum_blocks (fun n => if Acc.lab m c n = BitVec.ofNat 32 k.val then Acc.xrow m c n d else 0)).trans ?_
  refine Finset.sum_congr rfl fun b _ => ?_
  rw [lab_val, xrow_val]
  exact if_congr (Cert.SegMath.route_eq_iff _ k) rfl rfl

/-- The kernel's counts at class `k`. -/
theorem cntK_apply (c : Dev nD) (k : Fin 1000) :
    cntK m c (ix1 k) = Ideal.ofBits .f32 0x00000000#32
      + ∑ b : Fin 524288, (if labels m c (ix1 b) = BitVec.ofNat 32 k.val then (1 : EReal) else 0) := by
  refine (shapeCast_apply _ _ (ix1 k) (ix2 k (0 : Fin 1)) (by
    rw [Shape.rowMajor_val_two, Shape.rowMajor_val_one]
    show k.val * 1 + 0 = k.val
    omega)).trans ?_
  rw [Acc.final3]
  simp only [Host.reduceAdd, Ideal.hostReduceAdd_def]
  rw [Ideal.hostReduceAdd_single reducesTo_S2x1000x1_S1000x1_d0 (by decide)]
  refine congrArg₂ (· + ·) rfl ?_
  have hl : ∀ q : Fin 2, Acc.G3 m c ((by decide : S2x1000x1.Reduces [0] S1000x1).lift (ix2 k (0 : Fin 1)) q)
      = ∑ s ∈ Finset.range 128, Acc.add3 m c (128 * q.val + s) k := fun q =>
    (congrArg (Acc.G3 m c) (funext fun a => Fin.ext (by match a with | ⟨0, _⟩ => rfl | ⟨1, _⟩ => rfl | ⟨2, _⟩ => rfl))).trans
      (Acc.G3_apply m c q k)
  refine (Finset.sum_congr rfl fun q _ => hl q).trans ?_
  simp only [Acc.add3]
  refine (Cert.SegMath.sum_blocks (fun n => if Acc.lab m c n = BitVec.ofNat 32 k.val then (1 : EReal) else 0)).trans ?_
  refine Finset.sum_congr rfl fun b _ => ?_
  rw [lab_val]
  exact if_congr (Cert.SegMath.route_eq_iff _ k) rfl rfl

/-- The kernel's counts are the reference's: ones scattered by label into zeros. -/
theorem cnt_bridge (c : Dev nD) (l' : IVec S524288 32) (hl : l' = labels m c) :
    cntK m c = Host.scatterAdd (F := Ideal) Cert.ReferenceIdeal.scatter_S1000_S524288x1_S524288_n_0_0_1
      (broadcastInDim Cert.ReferenceIdeal.S1000 ![] Cert.ReferenceIdeal.Gen.bcast_S_S1000 (constant Cert.ReferenceIdeal.S_ .f32 0x00000000#32))
      (broadcastInDim Cert.ReferenceIdeal.S524288x1 ![0] Cert.ReferenceIdeal.Gen.bcast_S524288_S524288x1_0 l')
      (broadcastInDim Cert.ReferenceIdeal.S524288 ![] Cert.ReferenceIdeal.Gen.bcast_S_S524288 (constant Cert.ReferenceIdeal.S_ .f32 0x3F800000#32)) := by
  subst hl
  funext i
  obtain ⟨k, rfl⟩ : ∃ k : Fin 1000, i = ix1 k := ⟨i 0, eq_ix1 i⟩
  rw [cntK_apply]
  refine Eq.symm ((Cert.ReferenceIdeal.Scatter.counts_apply _ _ _ k).trans ?_)
  refine congrArg₂ (· + ·) rfl (Finset.sum_congr rfl fun b _ => ?_)
  show (if _ then Ideal.ofBits .f32 0x3F800000#32 else 0) = _
  rw [Ideal.ofBits_one_f32]

/-- The kernel's sums are the reference's: the rows scattered by label into zeros. -/
theorem sm_bridge (c : Dev nD) (l' : IVec S524288 32) (x' : FVec Ideal S524288x256 .f32) (hl : l' = labels m c) (hx : x' = rows m c) :
    smK m c = Host.scatterAdd (F := Ideal) Cert.ReferenceIdeal.scatter_S1000x256_S524288x1_S524288x256_1_0_0_1
      (broadcastInDim Cert.ReferenceIdeal.S1000x256 ![] Cert.ReferenceIdeal.Gen.bcast_S_S1000x256 (constant Cert.ReferenceIdeal.S_ .f32 0x00000000#32))
      (broadcastInDim Cert.ReferenceIdeal.S524288x1 ![0] Cert.ReferenceIdeal.Gen.bcast_S524288_S524288x1_0 l') x' := by
  subst hl; subst hx
  funext i
  obtain ⟨k, d, rfl⟩ : ∃ (k : Fin 1000) (d : Fin 256), i = ix2 k d := ⟨i 0, i 1, eq_ix2 i⟩
  rw [smK_apply]
  exact Eq.symm (Cert.ReferenceIdeal.Scatter.sums_apply _ _ _ k d)

end Cert.Bridge

end
-- ==== Proof.lean ====
/-
  Class-wise means by a one-hot matrix product, against a scatter-add.

  Both programs compute, from rows `x : [524288, 256]` with labels `l : [524288]` and two tables of 1000 centres,
  a loss that depends on `x` and `l` only through the per-class counts `cnt k = #{b | l b = k}` and the per-class
  sums `sm k d = Σ_{b : l b = k} x b d`; from there on the two programs apply the same operations, with the same
  constants, to `(cnt, sm)` and the centres (`Tail.tail`).

  The reference forms `cnt` and `sm` by scattering ones, and the rows, into zeros at the signed value of the label;
  an update whose label lies outside [0, 1000) is dropped. Over the extended reals that is, at class `k`,
  `0 + Σ_b [l b = k]·(…)`.

  The kernel first replaces every label outside [0, 1000) by −1, then walks the rows in 256 blocks of 2048, two runs of
  128 blocks. For a block it builds the 1000 × 2048 matrix `[routed label of row r = k]`, multiplies it with the block
  of rows and sums its rows, and adds both into a running block that is zeroed at the start of a run and written out
  at its end; the host adds the two runs' blocks. Over the extended reals a narrowing to bf16 and back is the identity,
  a product with a zero accumulator and a lane sum are finite sums, and sums may be regrouped, so the kernel's sums are
  `0 + Σ_b [routed label b = k]·x b d` over all 524288 rows; and a routed label is the word of a class `k < 1000`
  exactly when the label itself is. The two sides are the same sums; no finiteness of the inputs is needed.

  The three frames are the generated runs; the one entry of the idealization's ledger (the one-hot matrix narrowed
  to bf16 and widened again, replaced by itself) is the rule's own statement.
-/
import proofs.«405858_j83502754169266_3_alg».proof.Defs
import proofs.«405858_j83502754169266_3_alg».proof.Proof.Gen.Kernel
import proofs.«405858_j83502754169266_3_alg».proof.Proof.Gen.Kernel.Frame
import proofs.«405858_j83502754169266_3_alg».proof.Proof.Gen.KernelIdeal
import proofs.«405858_j83502754169266_3_alg».proof.Proof.Gen.KernelIdeal.Frame
import proofs.«405858_j83502754169266_3_alg».proof.Proof.Gen.ReferenceIdeal
import proofs.«405858_j83502754169266_3_alg».proof.Proof.Gen.Pre_finite_inputs
import proofs.«405858_j83502754169266_3_alg».proof.Proof.RefRunP
import proofs.«405858_j83502754169266_3_alg».proof.Proof.RefTail
import proofs.«405858_j83502754169266_3_alg».proof.Proof.KernelHost
import proofs.«405858_j83502754169266_3_alg».proof.Proof.Bridge
import Idealize.ShloMosaic.Adequacy
import Idealize.ShloMosaic.Init
import Idealize.ShloMosaic.PureOps.IdealRules

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ledger's one entry: narrowing the one-hot matrix to bf16 and widening it back is the identity over the
    extended reals, and the rounding through bf16 on words. -/
theorem preserves : Cert.preserves_Kernel_KernelIdeal :=
  IdealRules.truncf_extf.statement Cert.KernelIdeal.S1000x2048 .f32 .bf16

section KernelRun

open Cert.KernelIdeal Cert.KernelIdeal.Gen

/-- The idealized kernel's run, read: the loss ends at the shared tail of the kernel's counts and sums, the arguments
    unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v36)
        = Cert.ReferenceIdeal.Tail.tail (Cert.Bridge.cntK m c) (Cert.Bridge.smK m c)
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v36 (Pipeline.mem_restRefs_of main_v36 (by decide) (by decide))).trans (Cert.KernelIdeal.HostSide.kernel_tail m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end KernelRun

/-- Over the extended reals both programs end at the shared tail of the same counts and the same sums. -/
theorem algebraic : Cert.algebraic_KernelIdeal_ReferenceIdeal := by
  intro m ρ m' ρ' _ hagree
  refine ⟨fun c => Cert.ReferenceIdeal.Tail.tail (Cert.Bridge.cntK m c) (Cert.Bridge.smK m c)
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    kernel_run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefTail.res_eq_tail]
  beta_reduce
  rw [Cert.Bridge.cnt_bridge m c _ (hagree c).2.1, Cert.Bridge.sm_bridge m c _ _ (hagree c).2.1 (hagree c).1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
